-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) →
    ∃ (v0 : (c : Dev Cert.KernelIdeal.nD) → Buf (Elt Ideal) ((c.tc : Thread Cert.KernelIdeal.nD Cert.KernelIdeal.τ).loc Cert.KernelIdeal.main_v14_0)) (v1 : (c : Dev Cert.KernelIdeal.nD) → Buf (Elt Ideal) ((c.tc : Thread Cert.KernelIdeal.nD Cert.KernelIdeal.τ).loc Cert.KernelIdeal.main_v14_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14_0) = v0 c
          ∧ r.2.mem ((c.tc : Thread Cert.KernelIdeal.nD Cert.KernelIdeal.τ).loc Cert.KernelIdeal.main_v14_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v48) = v0 c
          ∧ r.2.mem ((c.tc : Thread Cert.ReferenceIdeal.nD Cert.ReferenceIdeal.τ).loc Cert.ReferenceIdeal.main_v67) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1024 : Shape := ⟨2, ![8192, 1024]⟩
abbrev S1024x1024 : Shape := ⟨2, ![1024, 1024]⟩
abbrev S1024 : Shape := ⟨1, ![1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part5 {F : FTy → Type} [FloatOps F] (main_arg18 : FVec F S1024 .f32) (main_v83 : IVec S_ 1) (main_v84 : FVec F S1024x1024 .f32) (main_cst_32 : FVec F S_ .f32) : IVec S_ 1 :=
  let main_v85 : FVec F S1024x1024 .f32 := broadcastInDim S1024x1024 ![] bcast_S_S1024x1024 main_cst_32
  let main_v86 : IVec S1024x1024 1 := cmpf .olt main_v84 main_v85
  let main_c_33 : IVec S_ 1 := constantI S_ 1 1#1
  let main_v87 : IVec S_ 1 := (fun x v => Host.reduce IntOp.andi x v reducesTo_S1024x1024_S_d0_1 h_S_) main_v86 main_c_33
  let main_v88 : IVec S_ 1 := andi main_v83 main_v87
  let main_v89 : FVec F S1024 .f32 := Host.absf main_arg18
  let main_cst_34 : FVec F S_ .f32 := constant S_ .f32 0x7F800000#32
  let main_v90 : FVec F S1024 .f32 := broadcastInDim S1024 ![] bcast_S_S1024 main_cst_34
  let main_v91 : IVec S1024 1 := cmpf .olt main_v89 main_v90
  let main_c_35 : IVec S_ 1 := constantI S_ 1 1#1
  let main_v92 : IVec S_ 1 := (fun x v => Host.reduce IntOp.andi x v reducesTo_S1024_S_d0 h_S_) main_v91 main_c_35
  let main_v93 : IVec S_ 1 := andi main_v88 main_v92
  main_v93

def fn_part4 {F : FTy → Type} [FloatOps F] (main_arg14 : FVec F S1024 .f32) (main_arg15 : FVec F S1024x1024 .f32) (main_arg16 : FVec F S1024 .f32) (main_arg17 : FVec F S1024x1024 .f32) (main_arg18 : FVec F S1024 .f32) (main_v63 : IVec S_ 1) (main_v67 : IVec S_ 1) : IVec S_ 1 :=
  let main_v68 : IVec S_ 1 := andi main_v63 main_v67
  let main_v69 : FVec F S1024 .f32 := Host.absf main_arg14
  let main_cst_26 : FVec F S_ .f32 := constant S_ .f32 0x7F800000#32
  let main_v70 : FVec F S1024 .f32 := broadcastInDim S1024 ![] bcast_S_S1024 main_cst_26
  let main_v71 : IVec S1024 1 := cmpf .olt main_v69 main_v70
  let main_c_27 : IVec S_ 1 := constantI S_ 1 1#1
  let main_v72 : IVec S_ 1 := (fun x v => Host.reduce IntOp.andi x v reducesTo_S1024_S_d0 h_S_) main_v71 main_c_27
  let main_v73 : IVec S_ 1 := andi main_v68 main_v72
  let main_v74 : FVec F S1024x1024 .f32 := Host.absf main_arg15
  let main_cst_28 : FVec F S_ .f32 := constant S_ .f32 0x7F800000#32
  let main_v75 : FVec F S1024x1024 .f32 := broadcastInDim S1024x1024 ![] bcast_S_S1024x1024 main_cst_28
  let main_v76 : IVec S1024x1024 1 := cmpf .olt main_v74 main_v75
  let main_c_29 : IVec S_ 1 := constantI S_ 1 1#1
  let main_v77 : IVec S_ 1 := (fun x v => Host.reduce IntOp.andi x v reducesTo_S1024x1024_S_d0_1 h_S_) main_v76 main_c_29
  let main_v78 : IVec S_ 1 := andi main_v73 main_v77
  let main_v79 : FVec F S1024 .f32 := Host.absf main_arg16
  let main_cst_30 : FVec F S_ .f32 := constant S_ .f32 0x7F800000#32
  let main_v80 : FVec F S1024 .f32 := broadcastInDim S1024 ![] bcast_S_S1024 main_cst_30
  let main_v81 : IVec S1024 1 := cmpf .olt main_v79 main_v80
  let main_c_31 : IVec S_ 1 := constantI S_ 1 1#1
  let main_v82 : IVec S_ 1 := (fun x v => Host.reduce IntOp.andi x v reducesTo_S1024_S_d0 h_S_) main_v81 main_c_31
  let main_v83 : IVec S_ 1 := andi main_v78 main_v82
  let main_v84 : FVec F S1024x1024 .f32 := Host.absf main_arg17
  let main_cst_32 : FVec F S_ .f32 := constant S_ .f32 0x7F800000#32
  fn_part5 (F := F) main_arg18 main_v83 main_v84 main_cst_32

def fn_part3 {F : FTy → Type} [FloatOps F] (main_arg11 : FVec F S1024x1024 .f32) (main_arg12 : FVec F S1024 .f32) (main_arg13 : FVec F S1024x1024 .f32) (main_arg14 : FVec F S1024 .f32) (main_arg15 : FVec F S1024x1024 .f32) (main_arg16 : FVec F S1024 .f32) (main_arg17 : FVec F S1024x1024 .f32) (main_arg18 : FVec F S1024 .f32) (main_v48 : IVec S_ 1) (main_v49 : FVec F S1024 .f32) (main_v50 : FVec F S1024 .f32) : IVec S_ 1 :=
  let main_v51 : IVec S1024 1 := cmpf .olt main_v49 main_v50
  let main_c_19 : IVec S_ 1 := constantI S_ 1 1#1
  let main_v52 : IVec S_ 1 := (fun x v => Host.reduce IntOp.andi x v reducesTo_S1024_S_d0 h_S_) main_v51 main_c_19
  let main_v53 : IVec S_ 1 := andi main_v48 main_v52
  let main_v54 : FVec F S1024x1024 .f32 := Host.absf main_arg11
  let main_cst_20 : FVec F S_ .f32 := constant S_ .f32 0x7F800000#32
  let main_v55 : FVec F S1024x1024 .f32 := broadcastInDim S1024x1024 ![] bcast_S_S1024x1024 main_cst_20
  let main_v56 : IVec S1024x1024 1 := cmpf .olt main_v54 main_v55
  let main_c_21 : IVec S_ 1 := constantI S_ 1 1#1
  let main_v57 : IVec S_ 1 := (fun x v => Host.reduce IntOp.andi x v reducesTo_S1024x1024_S_d0_1 h_S_) main_v56 main_c_21
  let main_v58 : IVec S_ 1 := andi main_v53 main_v57
  let main_v59 : FVec F S1024 .f32 := Host.absf main_arg12
  let main_cst_22 : FVec F S_ .f32 := constant S_ .f32 0x7F800000#32
  let main_v60 : FVec F S1024 .f32 := broadcastInDim S1024 ![] bcast_S_S1024 main_cst_22
  let main_v61 : IVec S1024 1 := cmpf .olt main_v59 main_v60
  let main_c_23 : IVec S_ 1 := constantI S_ 1 1#1
  let main_v62 : IVec S_ 1 := (fun x v => Host.reduce IntOp.andi x v reducesTo_S1024_S_d0 h_S_) main_v61 main_c_23
  let main_v63 : IVec S_ 1 := andi main_v58 main_v62
  let main_v64 : FVec F S1024x1024 .f32 := Host.absf main_arg13
  let main_cst_24 : FVec F S_ .f32 := constant S_ .f32 0x7F800000#32
  let main_v65 : FVec F S1024x1024 .f32 := broadcastInDim S1024x1024 ![] bcast_S_S1024x1024 main_cst_24
  let main_v66 : IVec S1024x1024 1 := cmpf .olt main_v64 main_v65
  let main_c_25 : IVec S_ 1 := constantI S_ 1 1#1
  let main_v67 : IVec S_ 1 := (fun x v => Host.reduce IntOp.andi x v reducesTo_S1024x1024_S_d0_1 h_S_) main_v66 main_c_25
  fn_part4 (F := F) main_arg14 main_arg15 main_arg16 main_arg17 main_arg18 main_v63 main_v67

def fn_part2 {F : FTy → Type} [FloatOps F] (main_arg7 : FVec F S1024x1024 .f32) (main_arg8 : FVec F S1024 .f32) (main_arg9 : FVec F S1024x1024 .f32) (main_arg10 : FVec F S1024 .f32) (main_arg11 : FVec F S1024x1024 .f32) (main_arg12 : FVec F S1024 .f32) (main_arg13 : FVec F S1024x1024 .f32) (main_arg14 : FVec F S1024 .f32) (main_arg15 : FVec F S1024x1024 .f32) (main_arg16 : FVec F S1024 .f32) (main_arg17 : FVec F S1024x1024 .f32) (main_arg18 : FVec F S1024 .f32) (main_v33 : IVec S_ 1) : IVec S_ 1 :=
  let main_v34 : FVec F S1024x1024 .f32 := Host.absf main_arg7
  let main_cst_12 : FVec F S_ .f32 := constant S_ .f32 0x7F800000#32
  let main_v35 : FVec F S1024x1024 .f32 := broadcastInDim S1024x1024 ![] bcast_S_S1024x1024 main_cst_12
  let main_v36 : IVec S1024x1024 1 := cmpf .olt main_v34 main_v35
  let main_c_13 : IVec S_ 1 := constantI S_ 1 1#1
  let main_v37 : IVec S_ 1 := (fun x v => Host.reduce IntOp.andi x v reducesTo_S1024x1024_S_d0_1 h_S_) main_v36 main_c_13
  let main_v38 : IVec S_ 1 := andi main_v33 main_v37
  let main_v39 : FVec F S1024 .f32 := Host.absf main_arg8
  let main_cst_14 : FVec F S_ .f32 := constant S_ .f32 0x7F800000#32
  let main_v40 : FVec F S1024 .f32 := broadcastInDim S1024 ![] bcast_S_S1024 main_cst_14
  let main_v41 : IVec S1024 1 := cmpf .olt main_v39 main_v40
  let main_c_15 : IVec S_ 1 := constantI S_ 1 1#1
  let main_v42 : IVec S_ 1 := (fun x v => Host.reduce IntOp.andi x v reducesTo_S1024_S_d0 h_S_) main_v41 main_c_15
  let main_v43 : IVec S_ 1 := andi main_v38 main_v42
  let main_v44 : FVec F S1024x1024 .f32 := Host.absf main_arg9
  let main_cst_16 : FVec F S_ .f32 := constant S_ .f32 0x7F800000#32
  let main_v45 : FVec F S1024x1024 .f32 := broadcastInDim S1024x1024 ![] bcast_S_S1024x1024 main_cst_16
  let main_v46 : IVec S1024x1024 1 := cmpf .olt main_v44 main_v45
  let main_c_17 : IVec S_ 1 := constantI S_ 1 1#1
  let main_v47 : IVec S_ 1 := (fun x v => Host.reduce IntOp.andi x v reducesTo_S1024x1024_S_d0_1 h_S_) main_v46 main_c_17
  let main_v48 : IVec S_ 1 := andi main_v43 main_v47
  let main_v49 : FVec F S1024 .f32 := Host.absf main_arg10
  let main_cst_18 : FVec F S_ .f32 := constant S_ .f32 0x7F800000#32
  let main_v50 : FVec F S1024 .f32 := broadcastInDim S1024 ![] bcast_S_S1024 main_cst_18
  fn_part3 (F := F) main_arg11 main_arg12 main_arg13 main_arg14 main_arg15 main_arg16 main_arg17 main_arg18 main_v48 main_v49 main_v50

def fn_part1 {F : FTy → Type} [FloatOps F] (main_arg4 : FVec F S1024 .f32) (main_arg5 : FVec F S1024x1024 .f32) (main_arg6 : FVec F S1024 .f32) (main_arg7 : FVec F S1024x1024 .f32) (main_arg8 : FVec F S1024 .f32) (main_arg9 : FVec F S1024x1024 .f32) (main_arg10 : FVec F S1024 .f32) (main_arg11 : FVec F S1024x1024 .f32) (main_arg12 : FVec F S1024 .f32) (main_arg13 : FVec F S1024x1024 .f32) (main_arg14 : FVec F S1024 .f32) (main_arg15 : FVec F S1024x1024 .f32) (main_arg16 : FVec F S1024 .f32) (main_arg17 : FVec F S1024x1024 .f32) (main_arg18 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_v33

def fn {F : FTy → Type} [FloatOps F] (main_arg0 : FVec F S8192x1024 .f32) (main_arg1 : FVec F S8192x1024 .f32) (main_arg2 : FVec F S8192x1024 .f32) (main_arg3 : FVec F S1024x1024 .f32) (main_arg4 : FVec F S1024 .f32) (main_arg5 : FVec F S1024x1024 .f32) (main_arg6 : FVec F S1024 .f32) (main_arg7 : FVec F S1024x1024 .f32) (main_arg8 : FVec F S1024 .f32) (main_arg9 : FVec F S1024x1024 .f32) (main_arg10 : FVec F S1024 .f32) (main_arg11 : FVec F S1024x1024 .f32) (main_arg12 : FVec F S1024 .f32) (main_arg13 : FVec F S1024x1024 .f32) (main_arg14 : FVec F S1024 .f32) (main_arg15 : FVec F S1024x1024 .f32) (main_arg16 : FVec F S1024 .f32) (main_arg17 : FVec F S1024x1024 .f32) (main_arg18 : FVec F S1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8192x1024 .f32 := Host.absf main_arg1
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_c_1 : IVec S_ 1 := constantI S_ 1 1#1
  let main_v7 : IVec S_ 1 := (fun x v => Host.reduce IntOp.andi x v reducesTo_S8192x1024_S_d0_1 h_S_) main_v6 main_c_1
  let main_v8 : IVec S_ 1 := andi main_v3 main_v7
  let main_v9 : FVec F S8192x1024 .f32 := Host.absf main_arg2
  let main_cst_2 : FVec F S_ .f32 := constant S_ .f32 0x7F800000#32
  let main_v10 : FVec F S8192x1024 .f32 := broadcastInDim S8192x1024 ![] bcast_S_S8192x1024 main_cst_2
  let main_v11 : IVec S8192x1024 1 := cmpf .olt main_v9 main_v10
  let main_c_3 : IVec S_ 1 := constantI S_ 1 1#1
  let main_v12 : IVec S_ 1 := (fun x v => Host.reduce IntOp.andi x v reducesTo_S8192x1024_S_d0_1 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_v13 main_v16
-- ==== Kernel.lean ====
abbrev S8192x1024 : Shape := ⟨2, ![8192, 1024]⟩
abbrev S1024x1024 : Shape := ⟨2, ![1024, 1024]⟩
abbrev S1024 : Shape := ⟨1, ![1024]⟩
abbrev S4096x1024 : Shape := ⟨2, ![4096, 1024]⟩
abbrev S1024x4096 : Shape := ⟨2, ![1024, 4096]⟩
abbrev S4096 : Shape := ⟨1, ![4096]⟩
abbrev S1x4096 : Shape := ⟨2, ![1, 4096]⟩
abbrev S256x1024 : Shape := ⟨2, ![256, 1024]⟩
abbrev S256x4096 : Shape := ⟨2, ![256, 4096]⟩

abbrev nBuf : Space → Nat
  | .hbm => 35
  | .vmem => 13
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x1024, .f32⟩
  | .hbm, ⟨8, _⟩ => ⟨S1024, .f32⟩
  | .hbm, ⟨9, _⟩ => ⟨S1024x1024, .f32⟩
  | .hbm, ⟨10, _⟩ => ⟨S1024, .f32⟩
  | .hbm, ⟨11, _⟩ => ⟨S1024x1024, .f32⟩
  | .hbm, ⟨12, _⟩ => ⟨S1024, .f32⟩
  | .hbm, ⟨13, _⟩ => ⟨S1024x1024, .f32⟩
  | .hbm, ⟨14, _⟩ => ⟨S1024, .f32⟩
  | .hbm, ⟨15, _⟩ => ⟨S1024x1024, .f32⟩
  | .hbm, ⟨16, _⟩ => ⟨S1024, .f32⟩
  | .hbm, ⟨17, _⟩ => ⟨S1024x1024, .f32⟩
  | .hbm, ⟨18, _⟩ => ⟨S1024, .f32⟩
  | .hbm, ⟨19, _⟩ => ⟨S4096x1024, .f32⟩
  | .hbm, ⟨20, _⟩ => ⟨S4096x1024, .f32⟩
  | .hbm, ⟨21, _⟩ => ⟨S1024x4096, .f32⟩
  | .hbm, ⟨22, _⟩ => ⟨S1024x4096, .bf16⟩
  | .hbm, ⟨23, _⟩ => ⟨S1024x4096, .f32⟩
  | .hbm, ⟨24, _⟩ => ⟨S1024x4096, .bf16⟩
  | .hbm, ⟨25, _⟩ => ⟨S1024, .f32⟩
  | .hbm, ⟨26, _⟩ => ⟨S1024, .f32⟩
  | .hbm, ⟨27, _⟩ => ⟨S1024, .f32⟩
  | .hbm, ⟨28, _⟩ => ⟨S1024, .f32⟩
  | .hbm, ⟨29, _⟩ => ⟨S4096, .f32⟩
  | .hbm, ⟨30, _⟩ => ⟨S1x4096, .f32⟩
  | .hbm, ⟨31, _⟩ => ⟨S8192x1024, .bf16⟩
  | .hbm, ⟨32, _⟩ => ⟨S8192x1024, .bf16⟩
  | .hbm, ⟨33, _⟩ => ⟨S8192x1024, .f32⟩
  | .hbm, ⟨34, _⟩ => ⟨S8192x1024, .f32⟩
  | .local _ .vmem, ⟨0, _⟩ => ⟨S256x1024, .bf16⟩
  | .local _ .vmem, ⟨1, _⟩ => ⟨S256x1024, .bf16⟩
  | .local _ .vmem, ⟨2, _⟩ => ⟨S256x1024, .bf16⟩
  | .local _ .vmem, ⟨3, _⟩ => ⟨S256x1024, .bf16⟩
  | .local _ .vmem, ⟨4, _⟩ => ⟨S256x1024, .f32⟩
  | .local _ .vmem, ⟨5, _⟩ => ⟨S256x1024, .f32⟩
  | .local _ .vmem, ⟨6, _⟩ => ⟨S1024x4096, .bf16⟩
  | .local _ .vmem, ⟨7, _⟩ => ⟨S1024x4096, .bf16⟩
  | .local _ .vmem, ⟨8, _⟩ => ⟨S1x4096, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14_0 : Ref sig .tc := ⟨.hbm, 33, rfl⟩
abbrev main_v14_1 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x4096 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x4096 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  concatenates_S1024x1024_S1024x1024_S1024x1024_S1024x1024_S4096x1024_d0 : Shape.Concatenates [S1024x1024, S1024x1024, S1024x1024, S1024x1024] S4096x1024 0
  transposes_S4096x1024_S1024x4096_1_0 : S4096x1024.Transposes [1, 0] S1024x4096
  bitsLt_bf16_f32 : FTy.bits .bf16 < FTy.bits .f32
  concatenates_S1024_S1024_S1024_S1024_S4096_d0 : Shape.Concatenates [S1024, S1024, S1024, S1024] S4096 0
  shapeCasts_S4096_S1x4096 : S4096.ShapeCasts S1x4096
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S256x4096 : S1x4096.Broadcasts S256x4096
  slices_S256x4096_o0_0_S256x1024 : S256x4096.Slices ![0, 0] S256x1024
  slices_S256x4096_o0_1024_S256x1024 : S256x4096.Slices ![0, 1024] S256x1024
  slices_S256x4096_o0_2048_S256x1024 : S256x4096.Slices ![0, 2048] S256x1024
  slices_S256x4096_o0_3072_S256x1024 : S256x4096.Slices ![0, 3072] S256x1024
  dot_S256x1024_S1024x4096_S256x4096_1_0_0_1_n_n_wf : DotDims.WF S256x1024 S1024x4096 S256x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S8192x1024.size a
  hwx0_0 : ∀ i : grid0.Coords, EltTy.bits .bf16 = 32 ∨ (Rect.block (s := S8192x1024) S256x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x1024.size a ≤ S8192x1024.size a
  hwx0_1 : ∀ i : grid0.Coords, EltTy.bits .bf16 = 32 ∨ (Rect.block (s := S8192x1024) S256x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1024.size a ≤ S8192x1024.size a
  hwx0_2 : ∀ i : grid0.Coords, EltTy.bits .f32 = 32 ∨ (Rect.block (s := S8192x1024) S256x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x4096.size a ≤ S1024x4096.size a
  hwx0_3 : ∀ i : grid0.Coords, EltTy.bits .bf16 = 32 ∨ (Rect.block (s := S1024x4096) S1024x4096.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x4096.size a ≤ S1024x4096.size a
  hwx0_4 : ∀ i : grid0.Coords, EltTy.bits .bf16 = 32 ∨ (Rect.block (s := S1024x4096) S1024x4096.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x4096.size a ≤ S1x4096.size a
  hwx0_5 : ∀ i : grid0.Coords, EltTy.bits .f32 = 32 ∨ (Rect.block (s := S1x4096) S1x4096.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S256x1024.size a ≤ S8192x1024.size a
  hwx0_6 : ∀ i : grid0.Coords, EltTy.bits .f32 = 32 ∨ (Rect.block (s := S8192x1024) S256x1024.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S256x1024.size a ≤ S8192x1024.size a
  hwx0_7 : ∀ i : grid0.Coords, EltTy.bits .f32 = 32 ∨ (Rect.block (s := S8192x1024) S256x1024.size (cc0_transform_7 i) (hinb0_7 i)).WholeWords (EltTy.packing .f32)

variable [Facts₀]

def dot_S256x1024_S1024x4096_S256x4096_1_0_0_1_n_n : DotDims S256x1024 S1024x4096 S256x4096 where
  lhsContracting := [1]
  rhsContracting := [0]
  lhsNonContracting := [0]
  rhsNonContracting := [1]
  lhsBatch := []
  rhsBatch := []
  wf := dot_S256x1024_S1024x4096_S256x4096_1_0_0_1_n_n_wf

abbrev win0_0 : Pipeline.Window sig grid0 :=
  Pipeline.Window.ofSpec (Memref.whole main_v12) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S256x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S256x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1024x4096.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S1024x4096.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v11) S1x4096.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v14_0) S256x1024.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v14_1) S256x1024.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S8192x1024 : Shape := ⟨2, ![8192, 1024]⟩
abbrev S1024x1024 : Shape := ⟨2, ![1024, 1024]⟩
abbrev S1024 : Shape := ⟨1, ![1024]⟩
abbrev S1x1024 : Shape := ⟨2, ![1, 1024]⟩
abbrev S_ : Shape := ⟨0, ![]⟩

abbrev nBuf : Space → Nat
  | .hbm => 93
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x1024, .f32⟩
  | .hbm, ⟨8, _⟩ => ⟨S1024, .f32⟩
  | .hbm, ⟨9, _⟩ => ⟨S1024x1024, .f32⟩
  | .hbm, ⟨10, _⟩ => ⟨S1024, .f32⟩
  | .hbm, ⟨11, _⟩ => ⟨S1024x1024, .f32⟩
  | .hbm, ⟨12, _⟩ => ⟨S1024, .f32⟩
  | .hbm, ⟨13, _⟩ => ⟨S1024x1024, .f32⟩
  | .hbm, ⟨14, _⟩ => ⟨S1024, .f32⟩
  | .hbm, ⟨15, _⟩ => ⟨S1024x1024, .f32⟩
  | .hbm, ⟨16, _⟩ => ⟨S1024, .f32⟩
  | .hbm, ⟨17, _⟩ => ⟨S1024x1024, .f32⟩
  | .hbm, ⟨18, _⟩ => ⟨S1024, .f32⟩
  | .hbm, ⟨19, _⟩ => ⟨S1024x1024, .f32⟩
  | .hbm, ⟨20, _⟩ => ⟨S8192x1024, .f32⟩
  | .hbm, ⟨21, _⟩ => ⟨S1x1024, .f32⟩
  | .hbm, ⟨22, _⟩ => ⟨S8192x1024, .f32⟩
  | .hbm, ⟨23, _⟩ => ⟨S8192x1024, .f32⟩
  | .hbm, ⟨24, _⟩ => ⟨S1024x1024, .f32⟩
  | .hbm, ⟨25, _⟩ => ⟨S8192x1024, .f32⟩
  | .hbm, ⟨26, _⟩ => ⟨S1x1024, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S8192x1024, .f32⟩
  | .hbm, ⟨31, _⟩ => ⟨S8192x1024, .f32⟩
  | .hbm, ⟨32, _⟩ => ⟨S_, .f32⟩
  | .hbm, ⟨33, _⟩ => ⟨S8192x1024, .f32⟩
  | .hbm, ⟨34, _⟩ => ⟨S8192x1024, .f32⟩
  | .hbm, ⟨35, _⟩ => ⟨S_, .f32⟩
  | .hbm, ⟨36, _⟩ => ⟨S8192x1024, .f32⟩
  | .hbm, ⟨37, _⟩ => ⟨S8192x1024, .f32⟩
  | .hbm, ⟨38, _⟩ => ⟨S1024x1024, .f32⟩
  | .hbm, ⟨39, _⟩ => ⟨S8192x1024, .f32⟩
  | .hbm, ⟨40, _⟩ => ⟨S1x1024, .f32⟩
  | .hbm, ⟨41, _⟩ => ⟨S8192x1024, .f32⟩
  | .hbm, ⟨42, _⟩ => ⟨S8192x1024, .f32⟩
  | .hbm, ⟨43, _⟩ => ⟨S1024x1024, .f32⟩
  | .hbm, ⟨44, _⟩ => ⟨S8192x1024, .f32⟩
  | .hbm, ⟨45, _⟩ => ⟨S1x1024, .f32⟩
  | .hbm, ⟨46, _⟩ => ⟨S8192x1024, .f32⟩
  | .hbm, ⟨47, _⟩ => ⟨S8192x1024, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S_, .f32⟩
  | .hbm, ⟨52, _⟩ => ⟨S8192x1024, .f32⟩
  | .hbm, ⟨53, _⟩ => ⟨S8192x1024, .f32⟩
  | .hbm, ⟨54, _⟩ => ⟨S_, .f32⟩
  | .hbm, ⟨55, _⟩ => ⟨S8192x1024, .f32⟩
  | .hbm, ⟨56, _⟩ => ⟨S8192x1024, .f32⟩
  | .hbm, ⟨57, _⟩ => ⟨S1024x1024, .f32⟩
  | .hbm, ⟨58, _⟩ => ⟨S8192x1024, .f32⟩
  | .hbm, ⟨59, _⟩ => ⟨S1x1024, .f32⟩
  | .hbm, ⟨60, _⟩ => ⟨S8192x1024, .f32⟩
  | .hbm, ⟨61, _⟩ => ⟨S8192x1024, .f32⟩
  | .hbm, ⟨62, _⟩ => ⟨S1024x1024, .f32⟩
  | .hbm, ⟨63, _⟩ => ⟨S8192x1024, .f32⟩
  | .hbm, ⟨64, _⟩ => ⟨S1x1024, .f32⟩
  | .hbm, ⟨65, _⟩ => ⟨S8192x1024, .f32⟩
  | .hbm, ⟨66, _⟩ => ⟨S8192x1024, .f32⟩
  | .hbm, ⟨67, _⟩ => ⟨S8192x1024, .f32⟩
  | .hbm, ⟨68, _⟩ => ⟨S8192x1024, .f32⟩
  | .hbm, ⟨69, _⟩ => ⟨S8192x1024, .f32⟩
  | .hbm, ⟨70, _⟩ => ⟨S8192x1024, .f32⟩
  | .hbm, ⟨71, _⟩ => ⟨S8192x1024, .f32⟩
  | .hbm, ⟨72, _⟩ => ⟨S1024x1024, .f32⟩
  | .hbm, ⟨73, _⟩ => ⟨S8192x1024, .f32⟩
  | .hbm, ⟨74, _⟩ => ⟨S1x1024, .f32⟩
  | .hbm, ⟨75, _⟩ => ⟨S8192x1024, .f32⟩
  | .hbm, ⟨76, _⟩ => ⟨S8192x1024, .f32⟩
  | .hbm, ⟨77, _⟩ => ⟨S1024x1024, .f32⟩
  | .hbm, ⟨78, _⟩ => ⟨S8192x1024, .f32⟩
  | .hbm, ⟨79, _⟩ => ⟨S1x1024, .f32⟩
  | .hbm, ⟨80, _⟩ => ⟨S8192x1024, .f32⟩
  | .hbm, ⟨81, _⟩ => ⟨S8192x1024, .f32⟩
  | .hbm, ⟨82, _⟩ => ⟨S8192x1024, .f32⟩
  | .hbm, ⟨83, _⟩ => ⟨S8192x1024, .f32⟩
  | .hbm, ⟨84, _⟩ => ⟨S8192x1024, .f32⟩
  | .hbm, ⟨85, _⟩ => ⟨S_, .f32⟩
  | .hbm, ⟨86, _⟩ => ⟨S8192x1024, .f32⟩
  | .hbm, ⟨87, _⟩ => ⟨S8192x1024, .f32⟩
  | .hbm, ⟨88, _⟩ => ⟨S_, .f32⟩
  | .hbm, ⟨89, _⟩ => ⟨S8192x1024, .f32⟩
  | .hbm, ⟨90, _⟩ => ⟨S8192x1024, .f32⟩
  | .hbm, ⟨91, _⟩ => ⟨S8192x1024, .f32⟩
  | .hbm, ⟨92, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_cst : Ref sig .tc := ⟨.hbm, 32, rfl⟩
abbrev main_v13 : Ref sig .tc := ⟨.hbm, 33, rfl⟩
abbrev main_v14 : Ref sig .tc := ⟨.hbm, 34, rfl⟩
abbrev main_cst_0 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_cst_1 : Ref sig .tc := ⟨.hbm, 51, rfl⟩
abbrev main_v30 : Ref sig .tc := ⟨.hbm, 52, rfl⟩
abbrev main_v31 : Ref sig .tc := ⟨.hbm, 53, rfl⟩
abbrev main_cst_2 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_cst_3 : Ref sig .tc := ⟨.hbm, 85, rfl⟩
abbrev main_v62 : Ref sig .tc := ⟨.hbm, 86, rfl⟩
abbrev main_v63 : Ref sig .tc := ⟨.hbm, 87, rfl⟩
abbrev main_cst_4 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩

abbrev nD : Nat := 1
abbrev τ : Topo := Topo.v7x

variable {F : FTy → Type} [FloatOps F]

class Facts₀ : Prop where
  transposes_S1024x1024_S1024x1024_1_0 : S1024x1024.Transposes [1, 0] S1024x1024
  bcast_S1024_S1x1024_1 : S1024.BroadcastsInDim S1x1024 (![1] : Fin 1 → Fin S1x1024.rank)
  bcast_S1x1024_S8192x1024_0_1 : S1x1024.BroadcastsInDim S8192x1024 (![0, 1] : Fin 2 → Fin S8192x1024.rank)
  bcast_S_S8192x1024 : S_.BroadcastsInDim S8192x1024 (![] : Fin 0 → Fin S8192x1024.rank)
  dot_S8192x1024_S1024x1024_S8192x1024_1_0_0_1_n_n_wf : DotDims.WF S8192x1024 S1024x1024 S8192x1024 [1] [0] [0] [1] [] []

variable [Facts₀]

def dot_S8192x1024_S1024x1024_S8192x1024_1_0_0_1_n_n : DotDims S8192x1024 S1024x1024 S8192x1024 where
  lhsContracting := [1]
  rhsContracting := [0]
  lhsNonContracting := [0]
  rhsNonContracting := [1]
  lhsBatch := []
  rhsBatch := []
  wf := dot_S8192x1024_S1024x1024_S8192x1024_1_0_0_1_n_n_wf

class Facts : Prop extends Facts₀ where

variable [Facts]
-- ==== Proof.KEntry.lean ====
/-
  The region of the LSTM cell kernel: the arrays as the region finds them (the arguments, and the four host-made
  operands: the two activations in the narrow format, the two stacked-and-transposed weight matrices, the summed
  bias row), each window's block at a grid point, what one grid point leaves in the two output buffers (the new
  cell rows and the new hidden rows of its 256-row batch tile), and the proof data of the one pipeline.
-/
import proofs.«156153_j1872605741706_1_alg».proof.Proof.Gen.Kernel.Launch
import proofs.«156153_j1872605741706_1_alg».proof.Proof.Gen.Kernel.Skeleton
import proofs.«156153_j1872605741706_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable (m : (ℓ : Loc nD τ sig) → Buf (Elt F) ℓ)

/-- Core `c`'s buffers when the region is entered: the launch contents after the fourteen host operations. -/
abbrev V (c : Dev nD) (b : Ref sig .tc) : Buf (Elt F) ((c : Thread nD τ).loc b) :=
  StableHlo.after (List.flatten [hostOps0]) (fun b => m (c, b)) b

/-- Window `w`'s block at grid point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The whole 256 × 1024 batch tile, the whole 1024 × 4096 stacked weights, the whole 1 × 4096 bias row. -/
abbrev rA : Rect S256x1024 := Rect.unit (s := S256x1024) ![0, 0] S256x1024.size inb_S256x1024_S256x1024_0_0
abbrev rW : Rect S1024x4096 := Rect.unit (s := S1024x4096) ![0, 0] S1024x4096.size inb_S1024x4096_S1024x4096_0_0
abbrev rB : Rect S1x4096 := Rect.unit (s := S1x4096) ![0, 0] S1x4096.size inb_S1x4096_S1x4096_0_0

/-- The new-cell buffer after the body: its one whole-tile store of the cell update of the six input blocks. -/
def out0_6 (x0 x1 : Vec F S256x1024 .bf16) (x2 : Vec F S256x1024 .f32) (x3 x4 : Vec F S1024x4096 .bf16) (x5 : Vec F S1x4096 .f32) :
    Vec F S256x1024 .f32 :=
  View.canon [⟨rA, k0_pay2 (View.ld x0 rA) (View.ld x1 rA) (View.ld x2 rA) (View.ld x3 rW) (View.ld x4 rW) (View.ld x5 rB)⟩]

/-- The new-hidden buffer after the body: its one whole-tile store of the hidden update of the six input blocks. -/
def out0_7 (x0 x1 : Vec F S256x1024 .bf16) (x2 : Vec F S256x1024 .f32) (x3 x4 : Vec F S1024x4096 .bf16) (x5 : Vec F S1x4096 .f32) :
    Vec F S256x1024 .f32 :=
  View.canon [⟨rA, k0_pay3 (View.ld x0 rA) (View.ld x1 rA) (View.ld x2 rA) (View.ld x3 rW) (View.ld x4 rW) (View.ld x5 rB)⟩]

/-- A whole-tile store covers the buffer. -/
theorem cover_tile (p0 : Vec F S256x1024 .f32) (y : S256x1024.Idx) :
    ∃ pc ∈ ([⟨rA, p0⟩] : List (View.Piece (Elt F) S256x1024 .f32)), y ∈ pc.1.set :=
  View.cover_of_tiled [⟨rA, p0⟩] S256x1024.size (by rfl) y

/-- The proof data of the pipeline on core `c`: the arrays as the region finds them; after the body at point `t`
    each input buffer still at its block, the two output buffers at the cell and hidden updates of the input blocks;
    the invariant the scoped rest and the generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => out0_6 (iblk m c 0 t) (iblk m c 1 t) (iblk m c 2 t) (iblk m c 3 t) (iblk m c 4 t) (iblk m c 5 t)
    | ⟨7, _⟩ => out0_7 (iblk m c 0 t) (iblk m c 1 t) (iblk m c 2 t) (iblk m c 3 t) (iblk m c 4 t) (iblk m c 5 t)
  Φ _ := Pipeline.ΦA spec0 c
  q _ := fullShare
  owed _ := 0

/-- The proof data's arrays are the region-entry contents. -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t
    = out0_6 (iblk m c 0 t) (iblk m c 1 t) (iblk m c 2 t) (iblk m c 3 t) (iblk m c 4 t) (iblk m c 5 t) := by dsimp only [dats]
theorem after0_7 (c : Dev nD) (t : Fin cfg0.N) : (dats m 0 c).after 7 t
    = out0_7 (iblk m c 0 t) (iblk m c 1 t) (iblk m c 2 t) (iblk m c 3 t) (iblk m c 4 t) (iblk m c 5 t) := by dsimp only [dats]

end Cert.Kernel.Hand

end
-- ==== Proof.KFrame.lean ====
/-
  The frame of the LSTM cell kernel: the program runs to its end and leaves its nineteen argument arrays as they
  were launched. The host side only writes the fourteen intermediate arrays (two stacked weight matrices, their
  transposes and narrowings, four bias sums, their concatenation and its row form, the two narrowed activations),
  so every argument reaches the region as launched. In the region each of the 32 grid points reads its six input
  blocks, writes one whole 256 × 1024 tile into each of the two output buffers, and touches nothing else; the one
  argument the region stages (the cell state, read only) is never written back, and the other eighteen arguments
  are no window's array.
-/
import proofs.«156153_j1872605741706_1_alg».proof.Proof.KEntry

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host side -/

/-- No host operation allocates: each writes its result over a buffer that exists at launch. -/
theorem hostOps0_fresh : (hostOps0 : List (HloOp τ sig (Elt F))).Forall fun op => op.fresh = ∅ :=
  ⟨rfl, rfl, rfl, rfl, rfl, rfl, rfl, rfl, rfl, rfl, rfl, rfl, rfl, rfl⟩

/-- @main is the fourteen host operations and then the region, so the region is entered at `V`. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0] hostOps0_sub hostOps0_fresh main_chain

/-- The fourteen arrays the host side writes: the results of its operations, in order. -/
abbrev hostResults : List (Ref sig .tc) :=
  [main_v0, main_v1, main_v2, main_v3, main_v4, main_v5, main_v6, main_v7, main_v8, main_v9, main_v10, main_v11, main_v12, main_v13]

/-- Each host operation writes exactly one array, and it is one of the fourteen. -/
theorem hostOps0_writes : (List.flatten [hostOps0] : List (HloOp τ sig (Elt F))).Forall fun op =>
    op.writes ⊆ (hostResults.map (Proc.devRef (τ := τ) .tc)).toFinset := by
  simp only [hostOps0, List.flatten_cons, List.flatten_nil, List.append_nil, List.Forall, StableHlo.nary_writes,
    StableHlo.unary_writes, StableHlo.binary_writes, StableHlo.reshape_writes, Finset.singleton_subset_iff, List.mem_toFinset]
  refine ⟨?_, ?_, ?_, ?_, ?_, ?_, ?_, ?_, ?_, ?_, ?_, ?_, ?_, ?_⟩ <;> exact List.mem_map_of_mem (by decide)

/-- An array that is none of the fourteen reaches the region as launched. -/
theorem V_of_unwritten (c : Dev nD) (r : Ref sig .tc) (hr : r ∉ hostResults) : V m c r = m ((c : Thread nD τ).loc r) :=
  StableHlo.after_of_writes_sub (List.flatten [hostOps0]) (fun b => m (c, b)) hostOps0_writes hr

/-- The nineteen arguments are none of the fourteen. -/
theorem V_main_arg0 (c : Dev nD) : V m c main_arg0 = m ((c : Thread nD τ).loc main_arg0) :=
  V_of_unwritten m c main_arg0 (by decide)
theorem V_main_arg1 (c : Dev nD) : V m c main_arg1 = m ((c : Thread nD τ).loc main_arg1) :=
  V_of_unwritten m c main_arg1 (by decide)
theorem V_main_arg2 (c : Dev nD) : V m c main_arg2 = m ((c : Thread nD τ).loc main_arg2) :=
  V_of_unwritten m c main_arg2 (by decide)
theorem V_main_arg3 (c : Dev nD) : V m c main_arg3 = m ((c : Thread nD τ).loc main_arg3) :=
  V_of_unwritten m c main_arg3 (by decide)
theorem V_main_arg4 (c : Dev nD) : V m c main_arg4 = m ((c : Thread nD τ).loc main_arg4) :=
  V_of_unwritten m c main_arg4 (by decide)
theorem V_main_arg5 (c : Dev nD) : V m c main_arg5 = m ((c : Thread nD τ).loc main_arg5) :=
  V_of_unwritten m c main_arg5 (by decide)
theorem V_main_arg6 (c : Dev nD) : V m c main_arg6 = m ((c : Thread nD τ).loc main_arg6) :=
  V_of_unwritten m c main_arg6 (by decide)
theorem V_main_arg7 (c : Dev nD) : V m c main_arg7 = m ((c : Thread nD τ).loc main_arg7) :=
  V_of_unwritten m c main_arg7 (by decide)
theorem V_main_arg8 (c : Dev nD) : V m c main_arg8 = m ((c : Thread nD τ).loc main_arg8) :=
  V_of_unwritten m c main_arg8 (by decide)
theorem V_main_arg9 (c : Dev nD) : V m c main_arg9 = m ((c : Thread nD τ).loc main_arg9) :=
  V_of_unwritten m c main_arg9 (by decide)
theorem V_main_arg10 (c : Dev nD) : V m c main_arg10 = m ((c : Thread nD τ).loc main_arg10) :=
  V_of_unwritten m c main_arg10 (by decide)
theorem V_main_arg11 (c : Dev nD) : V m c main_arg11 = m ((c : Thread nD τ).loc main_arg11) :=
  V_of_unwritten m c main_arg11 (by decide)
theorem V_main_arg12 (c : Dev nD) : V m c main_arg12 = m ((c : Thread nD τ).loc main_arg12) :=
  V_of_unwritten m c main_arg12 (by decide)
theorem V_main_arg13 (c : Dev nD) : V m c main_arg13 = m ((c : Thread nD τ).loc main_arg13) :=
  V_of_unwritten m c main_arg13 (by decide)
theorem V_main_arg14 (c : Dev nD) : V m c main_arg14 = m ((c : Thread nD τ).loc main_arg14) :=
  V_of_unwritten m c main_arg14 (by decide)
theorem V_main_arg15 (c : Dev nD) : V m c main_arg15 = m ((c : Thread nD τ).loc main_arg15) :=
  V_of_unwritten m c main_arg15 (by decide)
theorem V_main_arg16 (c : Dev nD) : V m c main_arg16 = m ((c : Thread nD τ).loc main_arg16) :=
  V_of_unwritten m c main_arg16 (by decide)
theorem V_main_arg17 (c : Dev nD) : V m c main_arg17 = m ((c : Thread nD τ).loc main_arg17) :=
  V_of_unwritten m c main_arg17 (by decide)
theorem V_main_arg18 (c : Dev nD) : V m c main_arg18 = m ((c : Thread nD τ).loc main_arg18) :=
  V_of_unwritten m c main_arg18 (by decide)

/-! ## The input windows at a grid point -/

/- Each input window's current staging buffer holds its block at every grid point. The two activations and the
   cell state are fetched at every point; the two weight matrices and the bias row are fetched at the first point
   only, their block index never moves, and the body leaves every input buffer as it found it, so the buffer still
   holds the one block at every later point. -/
theorem before0_0 (c : Dev nD) (t : Fin cfg0.N) (d) : (dats m 0 c).before 0 t d = iblk m c 0 t := by
  have hkeep : ∀ u, (cfg0.win 0).cut (cfg0.grid.coords u) ((dats m 0 c).after 0 u) = (dats m 0 c).blockOf 0 u := fun u => by
    rw [after0_0]; unfold Dat.blockOf iblk; rw [A_eq]; try rfl
  rw [(dats m 0 c).before_in_eq_fetched 0 rfl (fun _ => rfl) (fun _ _ _ => rfl) hkeep t d]
  unfold Dat.fetched Dat.blockOf iblk; rw [A_eq]; try rfl
theorem before0_1 (c : Dev nD) (t : Fin cfg0.N) (d) : (dats m 0 c).before 1 t d = iblk m c 1 t := by
  have hkeep : ∀ u, (cfg0.win 1).cut (cfg0.grid.coords u) ((dats m 0 c).after 1 u) = (dats m 0 c).blockOf 1 u := fun u => by
    rw [after0_1]; unfold Dat.blockOf iblk; rw [A_eq]; try rfl
  rw [(dats m 0 c).before_in_eq_fetched 1 rfl (fun _ => rfl) (fun _ _ _ => rfl) hkeep t d]
  unfold Dat.fetched Dat.blockOf iblk; rw [A_eq]; try rfl
theorem before0_2 (c : Dev nD) (t : Fin cfg0.N) (d) : (dats m 0 c).before 2 t d = iblk m c 2 t := by
  have hkeep : ∀ u, (cfg0.win 2).cut (cfg0.grid.coords u) ((dats m 0 c).after 2 u) = (dats m 0 c).blockOf 2 u := fun u => by
    rw [after0_2]; unfold Dat.blockOf iblk; rw [A_eq]; try rfl
  rw [(dats m 0 c).before_in_eq_fetched 2 rfl (fun _ => rfl) (fun _ _ _ => rfl) hkeep t d]
  unfold Dat.fetched Dat.blockOf iblk; rw [A_eq]; try rfl
theorem before0_3 (c : Dev nD) (t : Fin cfg0.N) (d) : (dats m 0 c).before 3 t d = iblk m c 3 t := by
  have hkeep : ∀ u, (cfg0.win 3).cut (cfg0.grid.coords u) ((dats m 0 c).after 3 u) = (dats m 0 c).blockOf 3 u := fun u => by
    rw [after0_3]; unfold Dat.blockOf iblk; rw [A_eq]; try rfl
  rw [(dats m 0 c).before_in_eq_fetched 3 rfl (fun _ => rfl) (fun _ _ _ => rfl) hkeep t d]
  unfold Dat.fetched Dat.blockOf iblk; rw [A_eq]; try rfl
theorem before0_4 (c : Dev nD) (t : Fin cfg0.N) (d) : (dats m 0 c).before 4 t d = iblk m c 4 t := by
  have hkeep : ∀ u, (cfg0.win 4).cut (cfg0.grid.coords u) ((dats m 0 c).after 4 u) = (dats m 0 c).blockOf 4 u := fun u => by
    rw [after0_4]; unfold Dat.blockOf iblk; rw [A_eq]; try rfl
  rw [(dats m 0 c).before_in_eq_fetched 4 rfl (fun _ => rfl) (fun _ _ _ => rfl) hkeep t d]
  unfold Dat.fetched Dat.blockOf iblk; rw [A_eq]; try rfl
theorem before0_5 (c : Dev nD) (t : Fin cfg0.N) (d) : (dats m 0 c).before 5 t d = iblk m c 5 t := by
  have hkeep : ∀ u, (cfg0.win 5).cut (cfg0.grid.coords u) ((dats m 0 c).after 5 u) = (dats m 0 c).blockOf 5 u := fun u => by
    rw [after0_5]; unfold Dat.blockOf iblk; rw [A_eq]; try rfl
  rw [(dats m 0 c).before_in_eq_fetched 5 rfl (fun _ => rfl) (fun _ _ _ => rfl) hkeep t d]
  unfold Dat.fetched Dat.blockOf iblk; rw [A_eq]; try rfl

/-! ## The body -/

set_option maxHeartbeats 1000000 in
/-- One grid point's body on whole staging buffers: the six input buffers owned at `x0 … x5`, the two output buffers
    owned at anything. It reads the six inputs, reads (and discards) each output buffer and then overwrites it whole,
    so it ends with the inputs as they were and the outputs at the cell and hidden updates of the inputs. -/
theorem sound_kernel (c : Dev nD) (E : Set ℕ) (i : grid0.Coords) (a0 : Memref sig .tc .vmem S256x1024 .bf16) (h0 : a0.IsWhole) (a1 : Memref sig .tc .vmem S256x1024 .bf16) (h1 : a1.IsWhole) (a2 : Memref sig .tc .vmem S256x1024 .f32) (h2 : a2.IsWhole) (a3 : Memref sig .tc .vmem S1024x4096 .bf16) (h3 : a3.IsWhole) (a4 : Memref sig .tc .vmem S1024x4096 .bf16) (h4 : a4.IsWhole) (a5 : Memref sig .tc .vmem S1x4096 .f32) (h5 : a5.IsWhole) (a6 : Memref sig .tc .vmem S256x1024 .f32) (h6 : a6.IsWhole) (a7 : Memref sig .tc .vmem S256x1024 .f32) (h7 : a7.IsWhole)
    (x0 x1 : Vec F S256x1024 .bf16) (x2 : Vec F S256x1024 .f32) (x3 x4 : Vec F S1024x4096 .bf16) (x5 : Vec F S1x4096 .f32) (K : PUnit → sProp 𝕄) :
    iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5
        ∗ (∃ d, owns (c : Thread nD τ) a6 fullShare d) ∗ (∃ d, owns (c : Thread nD τ) a7 fullShare d)
        ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5
            ∗ owns (c : Thread nD τ) a6 fullShare (out0_6 x0 x1 x2 x3 x4 x5) ∗ owns (c : Thread nD τ) a7 fullShare (out0_7 x0 x1 x2 x3 x4 x5)) -∗ K ⟨⟩))
      ⊢ wp frame (wpE (defs₀ (F := F)) Variants.none c none) E (cc0_lstm_kernel i a0 h0 a1 h1 a2 h2 a3 h3 a4 h4 a5 h5 a6 h6 a7 h7) K := by
  simp only [cc0_lstm_kernel_eq_skeleton]; unfold cc0_lstm_kernel_skel
  unfold owns
  iintro ⟨⟨%f0, %e0, H0⟩, ⟨%f1, %e1, H1⟩, ⟨%f2, %e2, H2⟩, ⟨%f3, %e3, H3⟩, ⟨%f4, %e4, H4⟩, ⟨%f5, %e5, H5⟩, ⟨%d6, %f6, -, H6⟩, ⟨%d7, %f7, -, H7⟩, Hk⟩
  subst e0 e1 e2 e3 e4 e5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (cover_tile _)
  iexists _; isplitr
  swap; · iexact H7
  ipureintro
  exact View.read_writes_eq_canon _ _ _ (cover_tile _)

/-! ## The body obligation -/

/-- What the pipeline hands the body at point `t`: the invariant, the core's debt (none), and every window's current
    staging buffer at what the schedule left in it. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

/-- What the body hands back: the same invariant and debt, every buffer at the proof data's `after`. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

/-- The body at any grid point: the six input buffers hold their blocks there, so the body's triple applies at those
    blocks; the invariant and the debt are not touched. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel c Set.univ (grid0.coords t) _ _ _ _ _ _ _ _ _ _ _ _ _ _ _ _
    (iblk m c 0 t) (iblk m c 1 t) (iblk m c 2 t) (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The pipeline's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any launch memory with zero counters, every weakly fair execution of @main terminates, and at its end every
    window's array holds what the proof data's write-backs leave in it and every other unscoped buffer holds what
    it held when the region was entered. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The arguments end as launched. The cell state is the array of input window 2: an input window is never written
    back, so it ends at its region-entry contents. Every other argument is unscoped and no window's array, so it ends
    at its region-entry contents too. Region-entry contents of an argument are its launch contents. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  (θ_run defs _ _).mono (fun _ h c =>
    ⟨((h c).1 2).trans (((dats m 0 c).arrAt_in 2 rfl _).trans ((A_eq m c 2).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c),
      ((h c).2 main_arg14 (Pipeline.mem_restRefs_of main_arg14 (by decide) (by decide))).trans (V_main_arg14 m c),
      ((h c).2 main_arg15 (Pipeline.mem_restRefs_of main_arg15 (by decide) (by decide))).trans (V_main_arg15 m c),
      ((h c).2 main_arg16 (Pipeline.mem_restRefs_of main_arg16 (by decide) (by decide))).trans (V_main_arg16 m c),
      ((h c).2 main_arg17 (Pipeline.mem_restRefs_of main_arg17 (by decide) (by decide))).trans (V_main_arg17 m c),
      ((h c).2 main_arg18 (Pipeline.mem_restRefs_of main_arg18 (by decide) (by decide))).trans (V_main_arg18 m c)⟩) (run_main m ρ)

end Cert.Kernel.Hand

end
-- ==== Proof.KIEntry.lean ====
/-
  The region of the LSTM cell kernel: the arrays as the region finds them (the arguments, and the four host-made
  operands: the two activations in the narrow format, the two stacked-and-transposed weight matrices, the summed
  bias row), each window's block at a grid point, what one grid point leaves in the two output buffers (the new
  cell rows and the new hidden rows of its 256-row batch tile), and the proof data of the one pipeline.
-/
import proofs.«156153_j1872605741706_1_alg».proof.Proof.Gen.KernelIdeal.Launch
import proofs.«156153_j1872605741706_1_alg».proof.Proof.Gen.KernelIdeal.Skeleton
import proofs.«156153_j1872605741706_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable (m : (ℓ : Loc nD τ sig) → Buf (Elt F) ℓ)

/-- Core `c`'s buffers when the region is entered: the launch contents after the fourteen host operations. -/
abbrev V (c : Dev nD) (b : Ref sig .tc) : Buf (Elt F) ((c : Thread nD τ).loc b) :=
  StableHlo.after (List.flatten [hostOps0]) (fun b => m (c, b)) b

/-- Window `w`'s block at grid point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The whole 256 × 1024 batch tile, the whole 1024 × 4096 stacked weights, the whole 1 × 4096 bias row. -/
abbrev rA : Rect S256x1024 := Rect.unit (s := S256x1024) ![0, 0] S256x1024.size inb_S256x1024_S256x1024_0_0
abbrev rW : Rect S1024x4096 := Rect.unit (s := S1024x4096) ![0, 0] S1024x4096.size inb_S1024x4096_S1024x4096_0_0
abbrev rB : Rect S1x4096 := Rect.unit (s := S1x4096) ![0, 0] S1x4096.size inb_S1x4096_S1x4096_0_0

/-- The new-cell buffer after the body: its one whole-tile store of the cell update of the six input blocks. -/
def out0_6 (x0 x1 : Vec F S256x1024 .bf16) (x2 : Vec F S256x1024 .f32) (x3 x4 : Vec F S1024x4096 .bf16) (x5 : Vec F S1x4096 .f32) :
    Vec F S256x1024 .f32 :=
  View.canon [⟨rA, k0_pay2 (View.ld x0 rA) (View.ld x1 rA) (View.ld x2 rA) (View.ld x3 rW) (View.ld x4 rW) (View.ld x5 rB)⟩]

/-- The new-hidden buffer after the body: its one whole-tile store of the hidden update of the six input blocks. -/
def out0_7 (x0 x1 : Vec F S256x1024 .bf16) (x2 : Vec F S256x1024 .f32) (x3 x4 : Vec F S1024x4096 .bf16) (x5 : Vec F S1x4096 .f32) :
    Vec F S256x1024 .f32 :=
  View.canon [⟨rA, k0_pay3 (View.ld x0 rA) (View.ld x1 rA) (View.ld x2 rA) (View.ld x3 rW) (View.ld x4 rW) (View.ld x5 rB)⟩]

/-- A whole-tile store covers the buffer. -/
theorem cover_tile (p0 : Vec F S256x1024 .f32) (y : S256x1024.Idx) :
    ∃ pc ∈ ([⟨rA, p0⟩] : List (View.Piece (Elt F) S256x1024 .f32)), y ∈ pc.1.set :=
  View.cover_of_tiled [⟨rA, p0⟩] S256x1024.size (by rfl) y

/-- The proof data of the pipeline on core `c`: the arrays as the region finds them; after the body at point `t`
    each input buffer still at its block, the two output buffers at the cell and hidden updates of the input blocks;
    the invariant the scoped rest and the generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => out0_6 (iblk m c 0 t) (iblk m c 1 t) (iblk m c 2 t) (iblk m c 3 t) (iblk m c 4 t) (iblk m c 5 t)
    | ⟨7, _⟩ => out0_7 (iblk m c 0 t) (iblk m c 1 t) (iblk m c 2 t) (iblk m c 3 t) (iblk m c 4 t) (iblk m c 5 t)
  Φ _ := Pipeline.ΦA spec0 c
  q _ := fullShare
  owed _ := 0

/-- The proof data's arrays are the region-entry contents. -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t
    = out0_6 (iblk m c 0 t) (iblk m c 1 t) (iblk m c 2 t) (iblk m c 3 t) (iblk m c 4 t) (iblk m c 5 t) := by dsimp only [dats]
theorem after0_7 (c : Dev nD) (t : Fin cfg0.N) : (dats m 0 c).after 7 t
    = out0_7 (iblk m c 0 t) (iblk m c 1 t) (iblk m c 2 t) (iblk m c 3 t) (iblk m c 4 t) (iblk m c 5 t) := by dsimp only [dats]

end Cert.KernelIdeal.Hand

end
-- ==== Proof.KIFrame.lean ====
/-
  The frame of the LSTM cell kernel: the program runs to its end and leaves its nineteen argument arrays as they
  were launched. The host side only writes the fourteen intermediate arrays (two stacked weight matrices, their
  transposes and narrowings, four bias sums, their concatenation and its row form, the two narrowed activations),
  so every argument reaches the region as launched. In the region each of the 32 grid points reads its six input
  blocks, writes one whole 256 × 1024 tile into each of the two output buffers, and touches nothing else; the one
  argument the region stages (the cell state, read only) is never written back, and the other eighteen arguments
  are no window's array.
-/
import proofs.«156153_j1872605741706_1_alg».proof.Proof.KIEntry

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host side -/

/-- No host operation allocates: each writes its result over a buffer that exists at launch. -/
theorem hostOps0_fresh : (hostOps0 : List (HloOp τ sig (Elt F))).Forall fun op => op.fresh = ∅ :=
  ⟨rfl, rfl, rfl, rfl, rfl, rfl, rfl, rfl, rfl, rfl, rfl, rfl, rfl, rfl⟩

/-- @main is the fourteen host operations and then the region, so the region is entered at `V`. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0] hostOps0_sub hostOps0_fresh main_chain

/-- The fourteen arrays the host side writes: the results of its operations, in order. -/
abbrev hostResults : List (Ref sig .tc) :=
  [main_v0, main_v1, main_v2, main_v3, main_v4, main_v5, main_v6, main_v7, main_v8, main_v9, main_v10, main_v11, main_v12, main_v13]

/-- Each host operation writes exactly one array, and it is one of the fourteen. -/
theorem hostOps0_writes : (List.flatten [hostOps0] : List (HloOp τ sig (Elt F))).Forall fun op =>
    op.writes ⊆ (hostResults.map (Proc.devRef (τ := τ) .tc)).toFinset := by
  simp only [hostOps0, List.flatten_cons, List.flatten_nil, List.append_nil, List.Forall, StableHlo.nary_writes,
    StableHlo.unary_writes, StableHlo.binary_writes, StableHlo.reshape_writes, Finset.singleton_subset_iff, List.mem_toFinset]
  refine ⟨?_, ?_, ?_, ?_, ?_, ?_, ?_, ?_, ?_, ?_, ?_, ?_, ?_, ?_⟩ <;> exact List.mem_map_of_mem (by decide)

/-- An array that is none of the fourteen reaches the region as launched. -/
theorem V_of_unwritten (c : Dev nD) (r : Ref sig .tc) (hr : r ∉ hostResults) : V m c r = m ((c : Thread nD τ).loc r) :=
  StableHlo.after_of_writes_sub (List.flatten [hostOps0]) (fun b => m (c, b)) hostOps0_writes hr

/-- The nineteen arguments are none of the fourteen. -/
theorem V_main_arg0 (c : Dev nD) : V m c main_arg0 = m ((c : Thread nD τ).loc main_arg0) :=
  V_of_unwritten m c main_arg0 (by decide)
theorem V_main_arg1 (c : Dev nD) : V m c main_arg1 = m ((c : Thread nD τ).loc main_arg1) :=
  V_of_unwritten m c main_arg1 (by decide)
theorem V_main_arg2 (c : Dev nD) : V m c main_arg2 = m ((c : Thread nD τ).loc main_arg2) :=
  V_of_unwritten m c main_arg2 (by decide)
theorem V_main_arg3 (c : Dev nD) : V m c main_arg3 = m ((c : Thread nD τ).loc main_arg3) :=
  V_of_unwritten m c main_arg3 (by decide)
theorem V_main_arg4 (c : Dev nD) : V m c main_arg4 = m ((c : Thread nD τ).loc main_arg4) :=
  V_of_unwritten m c main_arg4 (by decide)
theorem V_main_arg5 (c : Dev nD) : V m c main_arg5 = m ((c : Thread nD τ).loc main_arg5) :=
  V_of_unwritten m c main_arg5 (by decide)
theorem V_main_arg6 (c : Dev nD) : V m c main_arg6 = m ((c : Thread nD τ).loc main_arg6) :=
  V_of_unwritten m c main_arg6 (by decide)
theorem V_main_arg7 (c : Dev nD) : V m c main_arg7 = m ((c : Thread nD τ).loc main_arg7) :=
  V_of_unwritten m c main_arg7 (by decide)
theorem V_main_arg8 (c : Dev nD) : V m c main_arg8 = m ((c : Thread nD τ).loc main_arg8) :=
  V_of_unwritten m c main_arg8 (by decide)
theorem V_main_arg9 (c : Dev nD) : V m c main_arg9 = m ((c : Thread nD τ).loc main_arg9) :=
  V_of_unwritten m c main_arg9 (by decide)
theorem V_main_arg10 (c : Dev nD) : V m c main_arg10 = m ((c : Thread nD τ).loc main_arg10) :=
  V_of_unwritten m c main_arg10 (by decide)
theorem V_main_arg11 (c : Dev nD) : V m c main_arg11 = m ((c : Thread nD τ).loc main_arg11) :=
  V_of_unwritten m c main_arg11 (by decide)
theorem V_main_arg12 (c : Dev nD) : V m c main_arg12 = m ((c : Thread nD τ).loc main_arg12) :=
  V_of_unwritten m c main_arg12 (by decide)
theorem V_main_arg13 (c : Dev nD) : V m c main_arg13 = m ((c : Thread nD τ).loc main_arg13) :=
  V_of_unwritten m c main_arg13 (by decide)
theorem V_main_arg14 (c : Dev nD) : V m c main_arg14 = m ((c : Thread nD τ).loc main_arg14) :=
  V_of_unwritten m c main_arg14 (by decide)
theorem V_main_arg15 (c : Dev nD) : V m c main_arg15 = m ((c : Thread nD τ).loc main_arg15) :=
  V_of_unwritten m c main_arg15 (by decide)
theorem V_main_arg16 (c : Dev nD) : V m c main_arg16 = m ((c : Thread nD τ).loc main_arg16) :=
  V_of_unwritten m c main_arg16 (by decide)
theorem V_main_arg17 (c : Dev nD) : V m c main_arg17 = m ((c : Thread nD τ).loc main_arg17) :=
  V_of_unwritten m c main_arg17 (by decide)
theorem V_main_arg18 (c : Dev nD) : V m c main_arg18 = m ((c : Thread nD τ).loc main_arg18) :=
  V_of_unwritten m c main_arg18 (by decide)

/-! ## The input windows at a grid point -/

/- Each input window's current staging buffer holds its block at every grid point. The two activations and the
   cell state are fetched at every point; the two weight matrices and the bias row are fetched at the first point
   only, their block index never moves, and the body leaves every input buffer as it found it, so the buffer still
   holds the one block at every later point. -/
theorem before0_0 (c : Dev nD) (t : Fin cfg0.N) (d) : (dats m 0 c).before 0 t d = iblk m c 0 t := by
  have hkeep : ∀ u, (cfg0.win 0).cut (cfg0.grid.coords u) ((dats m 0 c).after 0 u) = (dats m 0 c).blockOf 0 u := fun u => by
    rw [after0_0]; unfold Dat.blockOf iblk; rw [A_eq]; try rfl
  rw [(dats m 0 c).before_in_eq_fetched 0 rfl (fun _ => rfl) (fun _ _ _ => rfl) hkeep t d]
  unfold Dat.fetched Dat.blockOf iblk; rw [A_eq]; try rfl
theorem before0_1 (c : Dev nD) (t : Fin cfg0.N) (d) : (dats m 0 c).before 1 t d = iblk m c 1 t := by
  have hkeep : ∀ u, (cfg0.win 1).cut (cfg0.grid.coords u) ((dats m 0 c).after 1 u) = (dats m 0 c).blockOf 1 u := fun u => by
    rw [after0_1]; unfold Dat.blockOf iblk; rw [A_eq]; try rfl
  rw [(dats m 0 c).before_in_eq_fetched 1 rfl (fun _ => rfl) (fun _ _ _ => rfl) hkeep t d]
  unfold Dat.fetched Dat.blockOf iblk; rw [A_eq]; try rfl
theorem before0_2 (c : Dev nD) (t : Fin cfg0.N) (d) : (dats m 0 c).before 2 t d = iblk m c 2 t := by
  have hkeep : ∀ u, (cfg0.win 2).cut (cfg0.grid.coords u) ((dats m 0 c).after 2 u) = (dats m 0 c).blockOf 2 u := fun u => by
    rw [after0_2]; unfold Dat.blockOf iblk; rw [A_eq]; try rfl
  rw [(dats m 0 c).before_in_eq_fetched 2 rfl (fun _ => rfl) (fun _ _ _ => rfl) hkeep t d]
  unfold Dat.fetched Dat.blockOf iblk; rw [A_eq]; try rfl
theorem before0_3 (c : Dev nD) (t : Fin cfg0.N) (d) : (dats m 0 c).before 3 t d = iblk m c 3 t := by
  have hkeep : ∀ u, (cfg0.win 3).cut (cfg0.grid.coords u) ((dats m 0 c).after 3 u) = (dats m 0 c).blockOf 3 u := fun u => by
    rw [after0_3]; unfold Dat.blockOf iblk; rw [A_eq]; try rfl
  rw [(dats m 0 c).before_in_eq_fetched 3 rfl (fun _ => rfl) (fun _ _ _ => rfl) hkeep t d]
  unfold Dat.fetched Dat.blockOf iblk; rw [A_eq]; try rfl
theorem before0_4 (c : Dev nD) (t : Fin cfg0.N) (d) : (dats m 0 c).before 4 t d = iblk m c 4 t := by
  have hkeep : ∀ u, (cfg0.win 4).cut (cfg0.grid.coords u) ((dats m 0 c).after 4 u) = (dats m 0 c).blockOf 4 u := fun u => by
    rw [after0_4]; unfold Dat.blockOf iblk; rw [A_eq]; try rfl
  rw [(dats m 0 c).before_in_eq_fetched 4 rfl (fun _ => rfl) (fun _ _ _ => rfl) hkeep t d]
  unfold Dat.fetched Dat.blockOf iblk; rw [A_eq]; try rfl
theorem before0_5 (c : Dev nD) (t : Fin cfg0.N) (d) : (dats m 0 c).before 5 t d = iblk m c 5 t := by
  have hkeep : ∀ u, (cfg0.win 5).cut (cfg0.grid.coords u) ((dats m 0 c).after 5 u) = (dats m 0 c).blockOf 5 u := fun u => by
    rw [after0_5]; unfold Dat.blockOf iblk; rw [A_eq]; try rfl
  rw [(dats m 0 c).before_in_eq_fetched 5 rfl (fun _ => rfl) (fun _ _ _ => rfl) hkeep t d]
  unfold Dat.fetched Dat.blockOf iblk; rw [A_eq]; try rfl

/-! ## The body -/

set_option maxHeartbeats 1000000 in
/-- One grid point's body on whole staging buffers: the six input buffers owned at `x0 … x5`, the two output buffers
    owned at anything. It reads the six inputs, reads (and discards) each output buffer and then overwrites it whole,
    so it ends with the inputs as they were and the outputs at the cell and hidden updates of the inputs. -/
theorem sound_kernel (c : Dev nD) (E : Set ℕ) (i : grid0.Coords) (a0 : Memref sig .tc .vmem S256x1024 .bf16) (h0 : a0.IsWhole) (a1 : Memref sig .tc .vmem S256x1024 .bf16) (h1 : a1.IsWhole) (a2 : Memref sig .tc .vmem S256x1024 .f32) (h2 : a2.IsWhole) (a3 : Memref sig .tc .vmem S1024x4096 .bf16) (h3 : a3.IsWhole) (a4 : Memref sig .tc .vmem S1024x4096 .bf16) (h4 : a4.IsWhole) (a5 : Memref sig .tc .vmem S1x4096 .f32) (h5 : a5.IsWhole) (a6 : Memref sig .tc .vmem S256x1024 .f32) (h6 : a6.IsWhole) (a7 : Memref sig .tc .vmem S256x1024 .f32) (h7 : a7.IsWhole)
    (x0 x1 : Vec F S256x1024 .bf16) (x2 : Vec F S256x1024 .f32) (x3 x4 : Vec F S1024x4096 .bf16) (x5 : Vec F S1x4096 .f32) (K : PUnit → sProp 𝕄) :
    iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5
        ∗ (∃ d, owns (c : Thread nD τ) a6 fullShare d) ∗ (∃ d, owns (c : Thread nD τ) a7 fullShare d)
        ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5
            ∗ owns (c : Thread nD τ) a6 fullShare (out0_6 x0 x1 x2 x3 x4 x5) ∗ owns (c : Thread nD τ) a7 fullShare (out0_7 x0 x1 x2 x3 x4 x5)) -∗ K ⟨⟩))
      ⊢ wp frame (wpE (defs₀ (F := F)) Variants.none c none) E (cc0_lstm_kernel i a0 h0 a1 h1 a2 h2 a3 h3 a4 h4 a5 h5 a6 h6 a7 h7) K := by
  simp only [cc0_lstm_kernel_eq_skeleton]; unfold cc0_lstm_kernel_skel
  unfold owns
  iintro ⟨⟨%f0, %e0, H0⟩, ⟨%f1, %e1, H1⟩, ⟨%f2, %e2, H2⟩, ⟨%f3, %e3, H3⟩, ⟨%f4, %e4, H4⟩, ⟨%f5, %e5, H5⟩, ⟨%d6, %f6, -, H6⟩, ⟨%d7, %f7, -, H7⟩, Hk⟩
  subst e0 e1 e2 e3 e4 e5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (cover_tile _)
  iexists _; isplitr
  swap; · iexact H7
  ipureintro
  exact View.read_writes_eq_canon _ _ _ (cover_tile _)

/-! ## The body obligation -/

/-- What the pipeline hands the body at point `t`: the invariant, the core's debt (none), and every window's current
    staging buffer at what the schedule left in it. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

/-- What the body hands back: the same invariant and debt, every buffer at the proof data's `after`. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

/-- The body at any grid point: the six input buffers hold their blocks there, so the body's triple applies at those
    blocks; the invariant and the debt are not touched. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel c Set.univ (grid0.coords t) _ _ _ _ _ _ _ _ _ _ _ _ _ _ _ _
    (iblk m c 0 t) (iblk m c 1 t) (iblk m c 2 t) (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The pipeline's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any launch memory with zero counters, every weakly fair execution of @main terminates, and at its end every
    window's array holds what the proof data's write-backs leave in it and every other unscoped buffer holds what
    it held when the region was entered. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The arguments end as launched. The cell state is the array of input window 2: an input window is never written
    back, so it ends at its region-entry contents. Every other argument is unscoped and no window's array, so it ends
    at its region-entry contents too. Region-entry contents of an argument are its launch contents. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  (θ_run defs _ _).mono (fun _ h c =>
    ⟨((h c).1 2).trans (((dats m 0 c).arrAt_in 2 rfl _).trans ((A_eq m c 2).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c),
      ((h c).2 main_arg14 (Pipeline.mem_restRefs_of main_arg14 (by decide) (by decide))).trans (V_main_arg14 m c),
      ((h c).2 main_arg15 (Pipeline.mem_restRefs_of main_arg15 (by decide) (by decide))).trans (V_main_arg15 m c),
      ((h c).2 main_arg16 (Pipeline.mem_restRefs_of main_arg16 (by decide) (by decide))).trans (V_main_arg16 m c),
      ((h c).2 main_arg17 (Pipeline.mem_restRefs_of main_arg17 (by decide) (by decide))).trans (V_main_arg17 m c),
      ((h c).2 main_arg18 (Pipeline.mem_restRefs_of main_arg18 (by decide) (by decide))).trans (V_main_arg18 m c)⟩) (run_main m ρ)

end Cert.KernelIdeal.Hand

end
-- ==== Proof.Cols.lean ====
/-
  The four gates' columns in the stacked layout: forget, input, candidate, output, 1024 columns each.
-/
import Mathlib.Data.Fin.Basic
import Mathlib.Tactic.Common

namespace Cert.Spec

/-- Column `q` of gate `g` among the 4096 stacked columns. -/
def col (g : Fin 4) (q : Fin 1024) : Fin 4096 := ⟨g.val * 1024 + q.val, by have := g.isLt; have := q.isLt; omega⟩

@[simp] theorem col_val (g : Fin 4) (q : Fin 1024) : (col g q).val = g.val * 1024 + q.val := rfl

end Cert.Spec
-- ==== Proof.KIPayload.lean ====
/-
  The kernel body's stored values read at an index, over the extended reals.

  The 256 x 4096 block of gate pre-activations is, at row p and stacked column n, the sum of the two products'
  entries (the input tile against the stacked input weights, the hidden tile against the stacked hidden weights)
  plus the bias row's entry n. The new cell tile at (p, q) reads the block at the forget, input and candidate
  columns of unit q; the new hidden tile reads it at the output column and reads the new cell tile at (p, q).
-/
import proofs.«156153_j1872605741706_1_alg».proof.Proof.Gen.KernelIdeal.Skeleton
import proofs.«156153_j1872605741706_1_alg».proof.Proof.Cols
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Pay

open Cert.KernelIdeal Cert.KernelIdeal.Gen Idealize.ShloMosaic Idealize.ShloMosaic.ValueIdx

/-- The fused pre-activation of row p, stacked column n: both products, then the bias row's entry. -/
def gate (x h : Vec Ideal S256x1024 .bf16) (wx wh : Vec Ideal S1024x4096 .bf16) (bias : Vec Ideal S1x4096 .f32)
    (p : Fin 256) (n : Fin 4096) : EReal :=
  (∑ k : Fin 1024, x (ix2 p k) * wx (ix2 k n) + ∑ k : Fin 1024, h (ix2 p k) * wh (ix2 k n)) + bias (ix2 (0 : Fin 1) n)

/-! The product's operand indices, axis by axis: the left operand keeps the output's row and takes the
    contraction coordinate as its column; the right operand takes the contraction coordinate as its row and
    keeps the output's column. -/

theorem lhs_dot_0 (i : S256x4096.Idx) (q : dot_S256x1024_S1024x4096_S256x4096_1_0_0_1_n_n.contr.Idx) :
    (dot_S256x1024_S1024x4096_S256x4096_1_0_0_1_n_n.lhsIdx i q 0).val = (i 0).val := by
  unfold DotDims.lhsIdx
  rw [dif_neg (show ¬(0 : Fin S256x1024.rank) ∈ dot_S256x1024_S1024x4096_S256x4096_1_0_0_1_n_n.lhsBatch by decide), dif_pos (show (0 : Fin S256x1024.rank) ∈ dot_S256x1024_S1024x4096_S256x4096_1_0_0_1_n_n.lhsNonContracting by decide)]
  rfl
theorem lhs_dot_1 (i : S256x4096.Idx) (q : dot_S256x1024_S1024x4096_S256x4096_1_0_0_1_n_n.contr.Idx) :
    (dot_S256x1024_S1024x4096_S256x4096_1_0_0_1_n_n.lhsIdx i q 1).val = (q ⟨0, by decide⟩).val :=
  dot_S256x1024_S1024x4096_S256x4096_1_0_0_1_n_n.lhsIdx_val_of_single rfl i q
theorem rhs_dot_0 (i : S256x4096.Idx) (q : dot_S256x1024_S1024x4096_S256x4096_1_0_0_1_n_n.contr.Idx) :
    (dot_S256x1024_S1024x4096_S256x4096_1_0_0_1_n_n.rhsIdx i q 0).val = (q ⟨0, by decide⟩).val :=
  dot_S256x1024_S1024x4096_S256x4096_1_0_0_1_n_n.rhsIdx_val_of_single rfl i q
theorem rhs_dot_1 (i : S256x4096.Idx) (q : dot_S256x1024_S1024x4096_S256x4096_1_0_0_1_n_n.contr.Idx) :
    (dot_S256x1024_S1024x4096_S256x4096_1_0_0_1_n_n.rhsIdx i q 1).val = (i 1).val := by
  unfold DotDims.rhsIdx
  rw [dif_neg (show ¬(1 : Fin S1024x4096.rank) ∈ dot_S256x1024_S1024x4096_S256x4096_1_0_0_1_n_n.rhsBatch by decide), dif_pos (show (1 : Fin S1024x4096.rank) ∈ dot_S256x1024_S1024x4096_S256x4096_1_0_0_1_n_n.rhsNonContracting by decide)]
  rfl

/-- A product into the zero accumulator, read at row p and column n: the sum over the 1024 contraction
    coordinates of the left operand's row-p entry times the right operand's column-n entry. -/
theorem matmul_zero_apply (l : FVec Ideal S256x1024 .bf16) (r : FVec Ideal S1024x4096 .bf16) (p : Fin 256) (n : Fin 4096) :
    matmul dot_S256x1024_S1024x4096_S256x4096_1_0_0_1_n_n none l r (constant (F := Ideal) S256x4096 .f32 0x00000000#32) (ix2 p n)
      = ∑ k : Fin 1024, l (ix2 p k) * r (ix2 k n) := by
  simp only [matmul]
  rw [Ideal.matmul_constant_zero_apply, ← Equiv.sum_comp (ValueIdx.contrEquiv1 dot_S256x1024_S1024x4096_S256x4096_1_0_0_1_n_n 1024 rfl rfl).symm]
  refine Finset.sum_congr rfl fun k _ => ?_
  have hk := ValueIdx.contrEquiv1_symm_val dot_S256x1024_S1024x4096_S256x4096_1_0_0_1_n_n 1024 rfl rfl k
  have el : dot_S256x1024_S1024x4096_S256x4096_1_0_0_1_n_n.lhsIdx (ix2 p n) ((ValueIdx.contrEquiv1 dot_S256x1024_S1024x4096_S256x4096_1_0_0_1_n_n 1024 rfl rfl).symm k) = ix2 p k := funext fun a => Fin.ext (by
    match a with
    | ⟨0, _⟩ => exact lhs_dot_0 _ _
    | ⟨1, _⟩ => exact (lhs_dot_1 _ _).trans hk)
  have er : dot_S256x1024_S1024x4096_S256x4096_1_0_0_1_n_n.rhsIdx (ix2 p n) ((ValueIdx.contrEquiv1 dot_S256x1024_S1024x4096_S256x4096_1_0_0_1_n_n 1024 rfl rfl).symm k) = ix2 k n := funext fun a => Fin.ext (by
    match a with
    | ⟨0, _⟩ => exact (rhs_dot_0 _ _).trans hk
    | ⟨1, _⟩ => exact rhs_dot_1 _ _)
  rw [el, er]

/-- The gate pre-activations at row p, stacked column n. -/
theorem pay1_apply (x h : Vec Ideal S256x1024 .bf16) (wx wh : Vec Ideal S1024x4096 .bf16) (bias : Vec Ideal S1x4096 .f32)
    (p : Fin 256) (n : Fin 4096) :
    k0_pay1 (F := Ideal) x h wx wh bias (ix2 p n) = gate x h wx wh bias p n := by
  unfold k0_pay1 gate
  rw [addf_apply, addf_apply, matmul_zero_apply, matmul_zero_apply, broadcastTo_1b_ab_apply]
  simp only [shapeCast_self]

/-! The logistic and the hyperbolic tangent act entry by entry. -/

theorem logistic_at (a : FVec Ideal S256x1024 .f32) (i : S256x1024.Idx) : logistic a i = Ideal.logistic (a i) := rfl
theorem tanh_at (a : FVec Ideal S256x1024 .f32) (i : S256x1024.Idx) : tanh a i = Ideal.tanh (a i) := rfl

/-- The g-th group of 1024 columns of a 256 x 4096 block, read at (p, q): the block's entry at row p and the
    stacked column of unit q in gate g. -/
theorem group_apply (g : Fin 4) (o : Nat) (ho : o = g.val * 1024) (X : S256x4096.Idx → EReal)
    (hs : S256x4096.Slices ![0, o] S256x1024) (p : Fin 256) (q : Fin 1024) :
    extractStridedSlice S256x1024 ![0, o] X hs (ix2 p q) = X (ix2 p (Cert.Spec.col g q)) :=
  slice2_axis1_apply o X hs p q (Cert.Spec.col g q) (by rw [Cert.Spec.col_val, ho])

/-- The new cell tile at (p, q): the old cell times the forget gate, plus the input gate times the candidate. -/
theorem pay2_apply (x h : Vec Ideal S256x1024 .bf16) (cell : Vec Ideal S256x1024 .f32) (wx wh : Vec Ideal S1024x4096 .bf16)
    (bias : Vec Ideal S1x4096 .f32) (p : Fin 256) (q : Fin 1024) :
    k0_pay2 (F := Ideal) x h cell wx wh bias (ix2 p q)
      = cell (ix2 p q) * Ideal.logistic (gate x h wx wh bias p (Cert.Spec.col 0 q))
        + Ideal.logistic (gate x h wx wh bias p (Cert.Spec.col 1 q)) * Ideal.tanh (gate x h wx wh bias p (Cert.Spec.col 2 q)) := by
  unfold k0_pay2
  rw [addf_apply, mulf_apply, mulf_apply, logistic_at, logistic_at, tanh_at,
    group_apply 0 0 rfl, group_apply 1 1024 rfl, group_apply 2 2048 rfl, pay1_apply, pay1_apply, pay1_apply]

/-- The new hidden tile at (p, q): the output gate times the hyperbolic tangent of the new cell entry. -/
theorem pay3_apply (x h : Vec Ideal S256x1024 .bf16) (cell : Vec Ideal S256x1024 .f32) (wx wh : Vec Ideal S1024x4096 .bf16)
    (bias : Vec Ideal S1x4096 .f32) (p : Fin 256) (q : Fin 1024) :
    k0_pay3 (F := Ideal) x h cell wx wh bias (ix2 p q)
      = Ideal.logistic (gate x h wx wh bias p (Cert.Spec.col 3 q))
        * Ideal.tanh (k0_pay2 (F := Ideal) x h cell wx wh bias (ix2 p q)) := by
  unfold k0_pay3
  rw [mulf_apply, logistic_at, tanh_at, group_apply 3 3072 rfl, pay1_apply]

end Cert.KernelIdeal.Pay

end
-- ==== Proof.Spec.lean ====
/-
  The LSTM cell step as ONE function of the nineteen argument arrays, index by index over the extended reals.

  For a batch row `b` and a hidden unit `j`, a gate's pre-activation is the sum of two linear layers,
  `(Σₖ x[b,k]·Wx[j,k] + bx[j]) + (Σₖ h[b,k]·Wh[j,k] + bh[j])`; the forget, input and output gates are its logistic,
  the candidate its hyperbolic tangent; the new cell is `cell·f + i·c̃` and the new hidden state `o·tanh(new cell)`.
  A fused evaluation adds the two products first and the two biases' sum afterwards: the same extended real, since
  addition there is commutative and associative (no finiteness is used).
-/
import Idealize.ShloMosaic.PureOps.Ideal
import Idealize.ShloMosaic.Lib.ValueIdx

noncomputable section

open scoped BigOperators

namespace Cert.Spec

open Idealize.ShloMosaic Idealize.ShloMosaic.ValueIdx

/-- Activations (batch × features), square weight matrices (output unit × input feature) and bias rows. -/
abbrev Act := FVec Ideal (⟨2, ![8192, 1024]⟩ : Shape) .f32
abbrev Mat := FVec Ideal (⟨2, ![1024, 1024]⟩ : Shape) .f32
abbrev Bias := FVec Ideal (⟨1, ![1024]⟩ : Shape) .f32

/-- One linear layer without its bias: row `b` of the activations against row `j` of the weights. -/
def lin (a : Act) (W : Mat) (b : Fin 8192) (j : Fin 1024) : EReal :=
  ∑ k : Fin 1024, a (ix2 b k) * W (ix2 j k)

/-- A gate's pre-activation, each layer's product with its own bias, then the two layers added. -/
def pre (x h : Act) (Wx Wh : Mat) (bx bh : Bias) (b : Fin 8192) (j : Fin 1024) : EReal :=
  (lin x Wx b j + bx (ix1 j)) + (lin h Wh b j + bh (ix1 j))

/-- The fused order — both products, then the summed biases — is the same pre-activation. -/
theorem pre_fused (x h : Act) (Wx Wh : Mat) (bx bh : Bias) (b : Fin 8192) (j : Fin 1024) :
    (lin x Wx b j + lin h Wh b j) + (bx (ix1 j) + bh (ix1 j)) = pre x h Wx Wh bx bh b j :=
  add_add_add_comm _ _ _ _

/-- The new cell state at `(b, j)`: `cell·σ(pre_f) + σ(pre_i)·tanh(pre_c)`. -/
def cellAt (cell x h : Act) (Wfx Wfh Wix Wih Wcx Wch : Mat) (bfx bfh bix bih bcx bch : Bias)
    (b : Fin 8192) (j : Fin 1024) : EReal :=
  cell (ix2 b j) * Ideal.logistic (pre x h Wfx Wfh bfx bfh b j)
    + Ideal.logistic (pre x h Wix Wih bix bih b j) * Ideal.tanh (pre x h Wcx Wch bcx bch b j)

/-- The new hidden state at `(b, j)`: `σ(pre_o)·tanh(new cell)`. -/
def hidAt (cell x h : Act) (Wfx Wfh Wix Wih Wcx Wch Wox Woh : Mat) (bfx bfh bix bih bcx bch box boh : Bias)
    (b : Fin 8192) (j : Fin 1024) : EReal :=
  Ideal.logistic (pre x h Wox Woh box boh b j)
    * Ideal.tanh (cellAt cell x h Wfx Wfh Wix Wih Wcx Wch bfx bfh bix bih bcx bch b j)

/-- The new cell state as an array. Arguments in the programs' order:
    cell, hidden, x, then per gate (forget, input, candidate, output) `W_x, b_x, W_h, b_h`. -/
def cellNext (cell h x : Act) (Wfx : Mat) (bfx : Bias) (Wfh : Mat) (bfh : Bias) (Wix : Mat) (bix : Bias) (Wih : Mat) (bih : Bias)
    (Wcx : Mat) (bcx : Bias) (Wch : Mat) (bch : Bias) : Act :=
  fun i => cellAt cell x h Wfx Wfh Wix Wih Wcx Wch bfx bfh bix bih bcx bch (i 0) (i 1)

/-- The new hidden state as an array, same argument order, the output gate's four arrays last. -/
def hidNext (cell h x : Act) (Wfx : Mat) (bfx : Bias) (Wfh : Mat) (bfh : Bias) (Wix : Mat) (bix : Bias) (Wih : Mat) (bih : Bias)
    (Wcx : Mat) (bcx : Bias) (Wch : Mat) (bch : Bias) (Wox : Mat) (box : Bias) (Woh : Mat) (boh : Bias) : Act :=
  fun i => hidAt cell x h Wfx Wfh Wix Wih Wcx Wch Wox Woh bfx bfh bix bih bcx bch box boh (i 0) (i 1)

theorem cellNext_apply (cell h x : Act) (Wfx : Mat) (bfx : Bias) (Wfh : Mat) (bfh : Bias) (Wix : Mat) (bix : Bias) (Wih : Mat) (bih : Bias)
    (Wcx : Mat) (bcx : Bias) (Wch : Mat) (bch : Bias) (b : Fin 8192) (j : Fin 1024) :
    cellNext cell h x Wfx bfx Wfh bfh Wix bix Wih bih Wcx bcx Wch bch (ix2 b j)
      = cellAt cell x h Wfx Wfh Wix Wih Wcx Wch bfx bfh bix bih bcx bch b j := rfl

theorem hidNext_apply (cell h x : Act) (Wfx : Mat) (bfx : Bias) (Wfh : Mat) (bfh : Bias) (Wix : Mat) (bix : Bias) (Wih : Mat) (bih : Bias)
    (Wcx : Mat) (bcx : Bias) (Wch : Mat) (bch : Bias) (Wox : Mat) (box : Bias) (Woh : Mat) (boh : Bias) (b : Fin 8192) (j : Fin 1024) :
    hidNext cell h x Wfx bfx Wfh bfh Wix bix Wih bih Wcx bcx Wch bch Wox box Woh boh (ix2 b j)
      = hidAt cell x h Wfx Wfh Wix Wih Wcx Wch Wox Woh bfx bfh bix bih bcx bch box boh b j := rfl

end Cert.Spec

end
-- ==== Proof.KITile.lean ====
/-
  One batch tile of the LSTM cell step against the specification.

  A grid point's tile is 256 consecutive batch rows. If the tile's activation blocks are those rows of the narrowed
  activations, the stacked weight operands hold gate `g`'s matrix transposed in column group `g`, and the bias row
  holds gate `g`'s two biases summed in that group, then the tile's stored new-cell and new-hidden entries are the
  specification's at the corresponding batch row: each fused pre-activation is the specification's by commutativity and
  associativity of addition on the extended reals (`Cert.Spec.pre_fused`); the gate functions are the same on both sides.
-/
import proofs.«156153_j1872605741706_1_alg».proof.Proof.KIPayload
import proofs.«156153_j1872605741706_1_alg».proof.Proof.Spec
import proofs.«156153_j1872605741706_1_alg».proof.Proof.Cols

noncomputable section

open scoped BigOperators

namespace Cert.KernelIdeal.Tile

open Cert.KernelIdeal Cert.KernelIdeal.Gen Cert.KernelIdeal.Pay Idealize.ShloMosaic Idealize.ShloMosaic.ValueIdx Cert.Spec

variable (x h : Vec Ideal S256x1024 .bf16) (cell : Vec Ideal S256x1024 .f32) (wx wh : Vec Ideal S1024x4096 .bf16)
  (bias : Vec Ideal S1x4096 .f32)
variable (C H X : Act)

/-- One gate: the fused pre-activation of tile row `p`, column `q` of group `g`, is the specification's
    pre-activation of batch row `b`, unit `q`. -/
theorem gate_eq (g : Fin 4) (Wx Wh : Mat) (bx bh : Bias) (b : Fin 8192) (p : Fin 256) (q : Fin 1024)
    (hx : ∀ k : Fin 1024, x (ix2 p k) = X (ix2 b k)) (hh : ∀ k : Fin 1024, h (ix2 p k) = H (ix2 b k))
    (hwx : ∀ k : Fin 1024, wx (ix2 k (col g q)) = Wx (ix2 q k)) (hwh : ∀ k : Fin 1024, wh (ix2 k (col g q)) = Wh (ix2 q k))
    (hb : bias (ix2 (0 : Fin 1) (col g q)) = bx (ix1 q) + bh (ix1 q)) :
    gate x h wx wh bias p (col g q) = pre X H Wx Wh bx bh b q := by
  rw [← pre_fused]
  unfold gate lin
  simp only [hx, hh, hwx, hwh, hb]

variable (Wfx : Mat) (bfx : Bias) (Wfh : Mat) (bfh : Bias) (Wix : Mat) (bix : Bias) (Wih : Mat) (bih : Bias)
  (Wcx : Mat) (bcx : Bias) (Wch : Mat) (bch : Bias) (Wox : Mat) (box : Bias) (Woh : Mat) (boh : Bias)

/-- The stored new-cell entry of tile row `p` is the specification's at batch row `b`. -/
theorem cell_entry (b : Fin 8192) (p : Fin 256) (q : Fin 1024)
    (hx : ∀ k : Fin 1024, x (ix2 p k) = X (ix2 b k)) (hh : ∀ k : Fin 1024, h (ix2 p k) = H (ix2 b k))
    (hc : cell (ix2 p q) = C (ix2 b q))
    (hwx0 : ∀ k : Fin 1024, wx (ix2 k (col 0 q)) = Wfx (ix2 q k)) (hwh0 : ∀ k : Fin 1024, wh (ix2 k (col 0 q)) = Wfh (ix2 q k))
    (hb0 : bias (ix2 (0 : Fin 1) (col 0 q)) = bfx (ix1 q) + bfh (ix1 q))
    (hwx1 : ∀ k : Fin 1024, wx (ix2 k (col 1 q)) = Wix (ix2 q k)) (hwh1 : ∀ k : Fin 1024, wh (ix2 k (col 1 q)) = Wih (ix2 q k))
    (hb1 : bias (ix2 (0 : Fin 1) (col 1 q)) = bix (ix1 q) + bih (ix1 q))
    (hwx2 : ∀ k : Fin 1024, wx (ix2 k (col 2 q)) = Wcx (ix2 q k)) (hwh2 : ∀ k : Fin 1024, wh (ix2 k (col 2 q)) = Wch (ix2 q k))
    (hb2 : bias (ix2 (0 : Fin 1) (col 2 q)) = bcx (ix1 q) + bch (ix1 q)) :
    k0_pay2 (F := Ideal) x h cell wx wh bias (ix2 p q)
      = cellNext C H X Wfx bfx Wfh bfh Wix bix Wih bih Wcx bcx Wch bch (ix2 b q) := by
  rw [cellNext_apply, pay2_apply,
    gate_eq x h wx wh bias H X 0 Wfx Wfh bfx bfh b p q hx hh hwx0 hwh0 hb0,
    gate_eq x h wx wh bias H X 1 Wix Wih bix bih b p q hx hh hwx1 hwh1 hb1,
    gate_eq x h wx wh bias H X 2 Wcx Wch bcx bch b p q hx hh hwx2 hwh2 hb2, hc]
  rfl

/-- The stored new-hidden entry of tile row `p` is the specification's at batch row `b`. -/
theorem hid_entry (b : Fin 8192) (p : Fin 256) (q : Fin 1024)
    (hx : ∀ k : Fin 1024, x (ix2 p k) = X (ix2 b k)) (hh : ∀ k : Fin 1024, h (ix2 p k) = H (ix2 b k))
    (hc : cell (ix2 p q) = C (ix2 b q))
    (hwx0 : ∀ k : Fin 1024, wx (ix2 k (col 0 q)) = Wfx (ix2 q k)) (hwh0 : ∀ k : Fin 1024, wh (ix2 k (col 0 q)) = Wfh (ix2 q k))
    (hb0 : bias (ix2 (0 : Fin 1) (col 0 q)) = bfx (ix1 q) + bfh (ix1 q))
    (hwx1 : ∀ k : Fin 1024, wx (ix2 k (col 1 q)) = Wix (ix2 q k)) (hwh1 : ∀ k : Fin 1024, wh (ix2 k (col 1 q)) = Wih (ix2 q k))
    (hb1 : bias (ix2 (0 : Fin 1) (col 1 q)) = bix (ix1 q) + bih (ix1 q))
    (hwx2 : ∀ k : Fin 1024, wx (ix2 k (col 2 q)) = Wcx (ix2 q k)) (hwh2 : ∀ k : Fin 1024, wh (ix2 k (col 2 q)) = Wch (ix2 q k))
    (hb2 : bias (ix2 (0 : Fin 1) (col 2 q)) = bcx (ix1 q) + bch (ix1 q))
    (hwx3 : ∀ k : Fin 1024, wx (ix2 k (col 3 q)) = Wox (ix2 q k)) (hwh3 : ∀ k : Fin 1024, wh (ix2 k (col 3 q)) = Woh (ix2 q k))
    (hb3 : bias (ix2 (0 : Fin 1) (col 3 q)) = box (ix1 q) + boh (ix1 q)) :
    k0_pay3 (F := Ideal) x h cell wx wh bias (ix2 p q)
      = hidNext C H X Wfx bfx Wfh bfh Wix bix Wih bih Wcx bcx Wch bch Wox box Woh boh (ix2 b q) := by
  rw [hidNext_apply, pay3_apply,
    cell_entry x h cell wx wh bias C H X Wfx bfx Wfh bfh Wix bix Wih bih Wcx bcx Wch bch b p q hx hh hc hwx0 hwh0 hb0 hwx1 hwh1 hb1 hwx2 hwh2 hb2,
    cellNext_apply,
    gate_eq x h wx wh bias H X 3 Wox Woh box boh b p q hx hh hwx3 hwh3 hb3]
  rfl

end Cert.KernelIdeal.Tile

end
-- ==== Proof.KIHostArrays.lean ====
/-
  The five operand arrays the host prepares for the LSTM cell step, each read at an index.

  The activations x and hidden are narrowed to the short float format: over the extended reals that is the identity.
  The four gates' input-side weight matrices (output unit × input feature) are stacked by rows into 4096 × 1024,
  transposed to 1024 × 4096 and narrowed: entry (k, g·1024 + q) of the result is entry (q, k) of gate g's matrix;
  likewise the hidden-side matrices. The two bias vectors of each gate are added, the four sums laid end to end
  and the 4096 entries recast as one row: entry (0, g·1024 + q) is the sum of gate g's two biases at q.
-/
import proofs.«156153_j1872605741706_1_alg».proof.Proof.KIEntry
import proofs.«156153_j1872605741706_1_alg».proof.Proof.Cols
import Idealize.ShloMosaic.Lib.StableHlo.Run
import Idealize.ShloMosaic.Lib.ValueIdx
import Idealize.ShloMosaic.Lib.ValueLayout

set_option maxRecDepth 16384

noncomputable section

namespace Cert.KernelIdeal.HostArr

open Cert.KernelIdeal Cert.KernelIdeal.Gen Cert.KernelIdeal.Hand
open Idealize.ShloMosaic Idealize.ShloMosaic.ValueIdx Idealize.ShloMosaic.TcCoe
open Cert.Spec (col)

/-! ## The stacked layout, away from the program -/

/-- Column g·1024 + q lies in the g-th group of 1024. -/
theorem col_div (g : Fin 4) (q : Fin 1024) : (col g q).val / 1024 = g.val := by
  rw [Cert.Spec.col_val]; have := q.isLt; omega

/-- Column g·1024 + q is the q-th of its group. -/
theorem col_mod (g : Fin 4) (q : Fin 1024) : q.val = (col g q).val % 1024 := by
  rw [Cert.Spec.col_val]; have := q.isLt; omega

/-- Four square matrices laid end to end along the rows: row g·1024 + q is row q of the g-th. -/
theorem rows4_apply {α : Type} (W0 W1 W2 W3 : S1024x1024.Idx → α)
    (h : Shape.Concatenates [S1024x1024, S1024x1024, S1024x1024, S1024x1024] S4096x1024 0) (g : Fin 4) (q k : Fin 1024) :
    concatenate S4096x1024 0 [⟨S1024x1024, W0⟩, ⟨S1024x1024, W1⟩, ⟨S1024x1024, W2⟩, ⟨S1024x1024, W3⟩] h (ix2 (col g q) k)
      = (![W0, W1, W2, W3] g) (ix2 q k) :=
  concatenate_ofFn_apply (t := S4096x1024) (s₁ := S1024x1024) (0 : Fin 2) ![W0, W1, W2, W3] h rfl 1024 rfl
    (ix2 (col g q) k) g (col_div g q) (ix2 q k) (col_mod g q)
    (fun b hb => match b, hb with | ⟨0, _⟩, hb => absurd rfl hb | ⟨1, _⟩, _ => rfl)

/-- Four vectors laid end to end: entry g·1024 + q is entry q of the g-th. -/
theorem vecs4_apply {α : Type} (b0 b1 b2 b3 : S1024.Idx → α)
    (h : Shape.Concatenates [S1024, S1024, S1024, S1024] S4096 0) (g : Fin 4) (q : Fin 1024) :
    concatenate S4096 0 [⟨S1024, b0⟩, ⟨S1024, b1⟩, ⟨S1024, b2⟩, ⟨S1024, b3⟩] h (ix1 (col g q))
      = (![b0, b1, b2, b3] g) (ix1 q) :=
  concatenate_ofFn_apply (t := S4096) (s₁ := S1024) (0 : Fin 1) ![b0, b1, b2, b3] h rfl 1024 rfl
    (ix1 (col g q)) g (col_div g q) (ix1 q) (col_mod g q)
    (fun b hb => match b, hb with | ⟨0, _⟩, hb => absurd rfl hb)

/-- Four weight matrices stacked by rows, transposed, narrowed. -/
def stackT (W0 W1 W2 W3 : FVec Ideal S1024x1024 .f32) : FVec Ideal S1024x4096 .bf16 :=
  truncf .bf16 (transpose S1024x4096 [1, 0]
    (concatenate S4096x1024 0 [⟨S1024x1024, W0⟩, ⟨S1024x1024, W1⟩, ⟨S1024x1024, W2⟩, ⟨S1024x1024, W3⟩]
      concatenates_S1024x1024_S1024x1024_S1024x1024_S1024x1024_S4096x1024_d0)
    transposes_S4096x1024_S1024x4096_1_0) bitsLt_bf16_f32

/-- Entry (k, g·1024 + q) of the stacked, transposed matrices is entry (q, k) of the g-th. -/
theorem stackT_apply (W0 W1 W2 W3 : FVec Ideal S1024x1024 .f32) (g : Fin 4) (k q : Fin 1024) :
    stackT W0 W1 W2 W3 (ix2 k (col g q)) = (![W0, W1, W2, W3] g) (ix2 q k) :=
  (truncf_apply (φ := .f32) (ψ := .bf16) _ bitsLt_bf16_f32 (ix2 k (col g q))).trans
    ((transpose_ix2_apply _ transposes_S4096x1024_S1024x4096_1_0 k (col g q)).trans
      (rows4_apply W0 W1 W2 W3 concatenates_S1024x1024_S1024x1024_S1024x1024_S1024x1024_S4096x1024_d0 g q k))

/-- Four bias sums laid end to end and recast as one row. -/
def biasRow (b0 b1 b2 b3 : FVec Ideal S1024 .f32) : FVec Ideal S1x4096 .f32 :=
  shapeCast S1x4096 (concatenate S4096 0 [⟨S1024, b0⟩, ⟨S1024, b1⟩, ⟨S1024, b2⟩, ⟨S1024, b3⟩]
    concatenates_S1024_S1024_S1024_S1024_S4096_d0) shapeCasts_S4096_S1x4096

/-- Entry (0, g·1024 + q) of the row is entry q of the g-th vector. -/
theorem biasRow_apply (b0 b1 b2 b3 : FVec Ideal S1024 .f32) (g : Fin 4) (q : Fin 1024) :
    biasRow b0 b1 b2 b3 (ix2 (0 : Fin 1) (col g q)) = (![b0, b1, b2, b3] g) (ix1 q) :=
  (shapeCast_a_1a_apply _ shapeCasts_S4096_S1x4096 (0 : Fin 1) (col g q)).trans
    (vecs4_apply b0 b1 b2 b3 concatenates_S1024_S1024_S1024_S1024_S4096_d0 g q)

/-! ## The arrays as the region finds them -/

variable (m : (ℓ : Loc nD τ sig) → Buf (Elt Ideal) ℓ)

/-- The narrowed x is x. -/
theorem xn_eq (c : Dev nD) : @Eq (S8192x1024.Idx → EReal) (V m c main_v12)
    (truncf (F := Ideal) (s := S8192x1024) (φ := .f32) .bf16 (m ((c : Thread nD τ).loc main_arg2)) bitsLt_bf16_f32) := by
  dsimp only [V]
  simp only [hostOps0, List.flatten_cons, List.flatten_nil, List.append_nil]
  after_results

theorem wx_eq (c : Dev nD) : @Eq (S1024x4096.Idx → EReal) (V m c main_v3)
    (stackT (m ((c : Thread nD τ).loc main_arg3)) (m ((c : Thread nD τ).loc main_arg7))
      (m ((c : Thread nD τ).loc main_arg11)) (m ((c : Thread nD τ).loc main_arg15))) := by
  dsimp only [V]
  simp only [hostOps0, List.flatten_cons, List.flatten_nil, List.append_nil]
  after_results
  rfl

theorem bias_eq (c : Dev nD) : @Eq (S1x4096.Idx → EReal) (V m c main_v11)
    (biasRow
      (addf (F := Ideal) (s := S1024) (φ := .f32) (m ((c : Thread nD τ).loc main_arg4)) (m ((c : Thread nD τ).loc main_arg6)))
      (addf (F := Ideal) (s := S1024) (φ := .f32) (m ((c : Thread nD τ).loc main_arg8)) (m ((c : Thread nD τ).loc main_arg10)))
      (addf (F := Ideal) (s := S1024) (φ := .f32) (m ((c : Thread nD τ).loc main_arg12)) (m ((c : Thread nD τ).loc main_arg14)))
      (addf (F := Ideal) (s := S1024) (φ := .f32) (m ((c : Thread nD τ).loc main_arg16)) (m ((c : Thread nD τ).loc main_arg18)))) := by
  dsimp only [V]
  simp only [hostOps0, List.flatten_cons, List.flatten_nil, List.append_nil]
  after_results
  rfl

/-- The narrowed hidden state is the hidden state. -/
theorem hn_eq (c : Dev nD) : @Eq (S8192x1024.Idx → EReal) (V m c main_v13)
    (truncf (F := Ideal) (s := S8192x1024) (φ := .f32) .bf16 (m ((c : Thread nD τ).loc main_arg1)) bitsLt_bf16_f32) := by
  dsimp only [V]
  simp only [hostOps0, List.flatten_cons, List.flatten_nil, List.append_nil]
  after_results

/-- The hidden-side weights: the four gates' matrices stacked, transposed, narrowed. -/
theorem wh_eq (c : Dev nD) : @Eq (S1024x4096.Idx → EReal) (V m c main_v5)
    (stackT (m ((c : Thread nD τ).loc main_arg5)) (m ((c : Thread nD τ).loc main_arg9))
      (m ((c : Thread nD τ).loc main_arg13)) (m ((c : Thread nD τ).loc main_arg17))) := by
  dsimp only [V]
  simp only [hostOps0, List.flatten_cons, List.flatten_nil, List.append_nil]
  after_results
  rfl

/-! ## The arrays read at an index -/

/-- x narrowed, at any index: x there. -/
theorem xn_apply (c : Dev nD) (i : S8192x1024.Idx) :
    (V m c main_v12 : S8192x1024.Idx → EReal) i = (m ((c : Thread nD τ).loc main_arg2) : S8192x1024.Idx → EReal) i :=
  (congrFun (xn_eq m c) i).trans (truncf_apply (φ := .f32) (ψ := .bf16) _ bitsLt_bf16_f32 i)

/-- The hidden state narrowed, at any index: the hidden state there. -/
theorem hn_apply (c : Dev nD) (i : S8192x1024.Idx) :
    (V m c main_v13 : S8192x1024.Idx → EReal) i = (m ((c : Thread nD τ).loc main_arg1) : S8192x1024.Idx → EReal) i :=
  (congrFun (hn_eq m c) i).trans (truncf_apply (φ := .f32) (ψ := .bf16) _ bitsLt_bf16_f32 i)

/-- The input-side weights at row k, column q of the forget gate's group: that gate's matrix at (q, k). -/
theorem wx_apply_0 (c : Dev nD) (k q : Fin 1024) :
    (V m c main_v3 : S1024x4096.Idx → EReal) (ix2 k (col 0 q)) = (m ((c : Thread nD τ).loc main_arg3) : S1024x1024.Idx → EReal) (ix2 q k) :=
  (congrFun (wx_eq m c) (ix2 k (col 0 q))).trans (stackT_apply _ _ _ _ 0 k q)

/-- The input-side weights at row k, column q of the input gate's group: that gate's matrix at (q, k). -/
theorem wx_apply_1 (c : Dev nD) (k q : Fin 1024) :
    (V m c main_v3 : S1024x4096.Idx → EReal) (ix2 k (col 1 q)) = (m ((c : Thread nD τ).loc main_arg7) : S1024x1024.Idx → EReal) (ix2 q k) :=
  (congrFun (wx_eq m c) (ix2 k (col 1 q))).trans (stackT_apply _ _ _ _ 1 k q)

/-- The input-side weights at row k, column q of the candidate gate's group: that gate's matrix at (q, k). -/
theorem wx_apply_2 (c : Dev nD) (k q : Fin 1024) :
    (V m c main_v3 : S1024x4096.Idx → EReal) (ix2 k (col 2 q)) = (m ((c : Thread nD τ).loc main_arg11) : S1024x1024.Idx → EReal) (ix2 q k) :=
  (congrFun (wx_eq m c) (ix2 k (col 2 q))).trans (stackT_apply _ _ _ _ 2 k q)

/-- The input-side weights at row k, column q of the output gate's group: that gate's matrix at (q, k). -/
theorem wx_apply_3 (c : Dev nD) (k q : Fin 1024) :
    (V m c main_v3 : S1024x4096.Idx → EReal) (ix2 k (col 3 q)) = (m ((c : Thread nD τ).loc main_arg15) : S1024x1024.Idx → EReal) (ix2 q k) :=
  (congrFun (wx_eq m c) (ix2 k (col 3 q))).trans (stackT_apply _ _ _ _ 3 k q)

/-- The hidden-side weights at row k, column q of the forget gate's group: that gate's matrix at (q, k). -/
theorem wh_apply_0 (c : Dev nD) (k q : Fin 1024) :
    (V m c main_v5 : S1024x4096.Idx → EReal) (ix2 k (col 0 q)) = (m ((c : Thread nD τ).loc main_arg5) : S1024x1024.Idx → EReal) (ix2 q k) :=
  (congrFun (wh_eq m c) (ix2 k (col 0 q))).trans (stackT_apply _ _ _ _ 0 k q)

/-- The hidden-side weights at row k, column q of the input gate's group: that gate's matrix at (q, k). -/
theorem wh_apply_1 (c : Dev nD) (k q : Fin 1024) :
    (V m c main_v5 : S1024x4096.Idx → EReal) (ix2 k (col 1 q)) = (m ((c : Thread nD τ).loc main_arg9) : S1024x1024.Idx → EReal) (ix2 q k) :=
  (congrFun (wh_eq m c) (ix2 k (col 1 q))).trans (stackT_apply _ _ _ _ 1 k q)

/-- The hidden-side weights at row k, column q of the candidate gate's group: that gate's matrix at (q, k). -/
theorem wh_apply_2 (c : Dev nD) (k q : Fin 1024) :
    (V m c main_v5 : S1024x4096.Idx → EReal) (ix2 k (col 2 q)) = (m ((c : Thread nD τ).loc main_arg13) : S1024x1024.Idx → EReal) (ix2 q k) :=
  (congrFun (wh_eq m c) (ix2 k (col 2 q))).trans (stackT_apply _ _ _ _ 2 k q)

/-- The hidden-side weights at row k, column q of the output gate's group: that gate's matrix at (q, k). -/
theorem wh_apply_3 (c : Dev nD) (k q : Fin 1024) :
    (V m c main_v5 : S1024x4096.Idx → EReal) (ix2 k (col 3 q)) = (m ((c : Thread nD τ).loc main_arg17) : S1024x1024.Idx → EReal) (ix2 q k) :=
  (congrFun (wh_eq m c) (ix2 k (col 3 q))).trans (stackT_apply _ _ _ _ 3 k q)

/-- The bias row at column q of the forget gate's group: the sum of that gate's two biases at q. -/
theorem bias_apply_0 (c : Dev nD) (q : Fin 1024) :
    (V m c main_v11 : S1x4096.Idx → EReal) (ix2 (0 : Fin 1) (col 0 q))
      = @HAdd.hAdd EReal EReal EReal instHAdd
          ((m ((c : Thread nD τ).loc main_arg4) : S1024.Idx → EReal) (ix1 q)) ((m ((c : Thread nD τ).loc main_arg6) : S1024.Idx → EReal) (ix1 q)) :=
  (congrFun (bias_eq m c) (ix2 (0 : Fin 1) (col 0 q))).trans (biasRow_apply _ _ _ _ 0 q)

/-- The bias row at column q of the input gate's group: the sum of that gate's two biases at q. -/
theorem bias_apply_1 (c : Dev nD) (q : Fin 1024) :
    (V m c main_v11 : S1x4096.Idx → EReal) (ix2 (0 : Fin 1) (col 1 q))
      = @HAdd.hAdd EReal EReal EReal instHAdd
          ((m ((c : Thread nD τ).loc main_arg8) : S1024.Idx → EReal) (ix1 q)) ((m ((c : Thread nD τ).loc main_arg10) : S1024.Idx → EReal) (ix1 q)) :=
  (congrFun (bias_eq m c) (ix2 (0 : Fin 1) (col 1 q))).trans (biasRow_apply _ _ _ _ 1 q)

/-- The bias row at column q of the candidate gate's group: the sum of that gate's two biases at q. -/
theorem bias_apply_2 (c : Dev nD) (q : Fin 1024) :
    (V m c main_v11 : S1x4096.Idx → EReal) (ix2 (0 : Fin 1) (col 2 q))
      = @HAdd.hAdd EReal EReal EReal instHAdd
          ((m ((c : Thread nD τ).loc main_arg12) : S1024.Idx → EReal) (ix1 q)) ((m ((c : Thread nD τ).loc main_arg14) : S1024.Idx → EReal) (ix1 q)) :=
  (congrFun (bias_eq m c) (ix2 (0 : Fin 1) (col 2 q))).trans (biasRow_apply _ _ _ _ 2 q)

/-- The bias row at column q of the output gate's group: the sum of that gate's two biases at q. -/
theorem bias_apply_3 (c : Dev nD) (q : Fin 1024) :
    (V m c main_v11 : S1x4096.Idx → EReal) (ix2 (0 : Fin 1) (col 3 q))
      = @HAdd.hAdd EReal EReal EReal instHAdd
          ((m ((c : Thread nD τ).loc main_arg16) : S1024.Idx → EReal) (ix1 q)) ((m ((c : Thread nD τ).loc main_arg18) : S1024.Idx → EReal) (ix1 q)) :=
  (congrFun (bias_eq m c) (ix2 (0 : Fin 1) (col 3 q))).trans (biasRow_apply _ _ _ _ 3 q)

end Cert.KernelIdeal.HostArr

end
-- ==== Proof.KIValue.lean ====
/-
  The value of the idealized LSTM cell kernel: after the run the two result arrays are the specification's new cell
  state and new hidden state of the argument arrays.

  Grid point `t` handles batch rows `256·t … 256·t + 255`: its three activation blocks are those rows of the narrowed
  x, the narrowed hidden state and the cell state; its weight and bias blocks are the whole stacked operands. What it
  writes back is therefore tile `t` of the specification's arrays (one tile entry against the specification: the tile
  lemmas; the stacked operands against the arguments: the host-array lemmas), and the 32 tiles cover the 8192 rows.
-/
import proofs.«156153_j1872605741706_1_alg».proof.Proof.KIFrame
import proofs.«156153_j1872605741706_1_alg».proof.Proof.KITile
import proofs.«156153_j1872605741706_1_alg».proof.Proof.KIHostArrays
import proofs.«156153_j1872605741706_1_alg».proof.Proof.Spec
import proofs.«156153_j1872605741706_1_alg».proof.Proof.Cols
import Idealize.ShloMosaic.Lib.Pipeline.Value
import Idealize.ShloMosaic.Lib.ValueIdx

set_option maxRecDepth 16384

noncomputable section

open scoped BigOperators

namespace Cert.KernelIdeal.KValue

open Cert.KernelIdeal Cert.KernelIdeal.Gen Cert.KernelIdeal.Hand Cert.KernelIdeal.HostArr Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- The printed index maps over the grid: the three activation windows and the two output windows take batch tile
    `t` at point `t`; the weight and bias windows take their one whole block at every point. -/
theorem idx_rows : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0
    ∧ win0_7.index t (0 : Fin 2) = t.val ∧ win0_7.index t (1 : Fin 2) = 0 :=
  (by decide +kernel : ∀ t : Fin grid0.N, _)

/-- Batch row `256·t + p`: row `p` of tile `t`. -/
def row (t : Fin cfg0.N) (p : Fin 256) : Fin 8192 :=
  ⟨256 * t.val + p.val, by have h : t.val < 32 := Nat.lt_of_lt_of_eq t.isLt N_0; have := p.isLt; omega⟩

/-- The narrowed-x window's block at point `t` is rows `256·t …` of its array. -/
theorem xtile_apply (c : Dev nD) (t : Fin cfg0.N) (p : Fin 256) (k : Fin 1024) :
    (iblk m c 0 t : Vec Ideal S256x1024 .bf16) (ix2 p k) = (V m c main_v12 : S8192x1024.Idx → EReal) (ix2 (row t p) k) := by
  obtain ⟨e0, e1, -⟩ := idx_rows t
  unfold iblk
  rw [View.read_apply]
  refine congrArg (V m c main_v12 : S8192x1024.Idx → EReal) ?_
  funext a; apply Fin.ext
  match a with
  | ⟨0, _⟩ => show win0_0.index t 0 * 256 + 1 * p.val = 256 * t.val + p.val; rw [e0]; omega
  | ⟨1, _⟩ => show win0_0.index t 1 * 1024 + 1 * k.val = k.val; rw [e1]; omega

/-- The narrowed-hidden window's block at point `t` is rows `256·t …` of its array. -/
theorem htile_apply (c : Dev nD) (t : Fin cfg0.N) (p : Fin 256) (k : Fin 1024) :
    (iblk m c 1 t : Vec Ideal S256x1024 .bf16) (ix2 p k) = (V m c main_v13 : S8192x1024.Idx → EReal) (ix2 (row t p) k) := by
  obtain ⟨-, -, e0, e1, -⟩ := idx_rows t
  unfold iblk
  rw [View.read_apply]
  refine congrArg (V m c main_v13 : S8192x1024.Idx → EReal) ?_
  funext a; apply Fin.ext
  match a with
  | ⟨0, _⟩ => show win0_1.index t 0 * 256 + 1 * p.val = 256 * t.val + p.val; rw [e0]; omega
  | ⟨1, _⟩ => show win0_1.index t 1 * 1024 + 1 * k.val = k.val; rw [e1]; omega

/-- The cell window's block at point `t` is rows `256·t …` of the cell argument. -/
theorem ctile_apply (c : Dev nD) (t : Fin cfg0.N) (p : Fin 256) (k : Fin 1024) :
    (iblk m c 2 t : Vec Ideal S256x1024 .f32) (ix2 p k) = (V m c main_arg0 : S8192x1024.Idx → EReal) (ix2 (row t p) k) := by
  obtain ⟨-, -, -, -, e0, e1, -⟩ := idx_rows t
  unfold iblk
  rw [View.read_apply]
  refine congrArg (V m c main_arg0 : S8192x1024.Idx → EReal) ?_
  funext a; apply Fin.ext
  match a with
  | ⟨0, _⟩ => show win0_2.index t 0 * 256 + 1 * p.val = 256 * t.val + p.val; rw [e0]; omega
  | ⟨1, _⟩ => show win0_2.index t 1 * 1024 + 1 * k.val = k.val; rw [e1]; omega

/-- The stacked x-weights window's one block is its whole array. -/
theorem wxblk_apply (c : Dev nD) (t : Fin cfg0.N) (k : Fin 1024) (n : Fin 4096) :
    (iblk m c 3 t : Vec Ideal S1024x4096 .bf16) (ix2 k n) = (V m c main_v3 : S1024x4096.Idx → EReal) (ix2 k n) := by
  obtain ⟨-, -, -, -, -, -, e0, e1, -⟩ := idx_rows t
  unfold iblk
  rw [View.read_apply]
  refine congrArg (V m c main_v3 : S1024x4096.Idx → EReal) ?_
  funext a; apply Fin.ext
  match a with
  | ⟨0, _⟩ => show win0_3.index t 0 * 1024 + 1 * k.val = k.val; rw [e0]; omega
  | ⟨1, _⟩ => show win0_3.index t 1 * 4096 + 1 * n.val = n.val; rw [e1]; omega

/-- The stacked h-weights window's one block is its whole array. -/
theorem whblk_apply (c : Dev nD) (t : Fin cfg0.N) (k : Fin 1024) (n : Fin 4096) :
    (iblk m c 4 t : Vec Ideal S1024x4096 .bf16) (ix2 k n) = (V m c main_v5 : S1024x4096.Idx → EReal) (ix2 k n) := by
  obtain ⟨-, -, -, -, -, -, -, -, e0, e1, -⟩ := idx_rows t
  unfold iblk
  rw [View.read_apply]
  refine congrArg (V m c main_v5 : S1024x4096.Idx → EReal) ?_
  funext a; apply Fin.ext
  match a with
  | ⟨0, _⟩ => show win0_4.index t 0 * 1024 + 1 * k.val = k.val; rw [e0]; omega
  | ⟨1, _⟩ => show win0_4.index t 1 * 4096 + 1 * n.val = n.val; rw [e1]; omega

/-- The bias-row window's one block is its whole array. -/
theorem bblk_apply (c : Dev nD) (t : Fin cfg0.N) (z : Fin 1) (n : Fin 4096) :
    (iblk m c 5 t : Vec Ideal S1x4096 .f32) (ix2 z n) = (V m c main_v11 : S1x4096.Idx → EReal) (ix2 z n) := by
  obtain ⟨-, -, -, -, -, -, -, -, -, -, e0, e1, -⟩ := idx_rows t
  unfold iblk
  rw [View.read_apply]
  refine congrArg (V m c main_v11 : S1x4096.Idx → EReal) ?_
  funext a; apply Fin.ext
  match a with
  | ⟨0, _⟩ => show win0_5.index t 0 * 1 + 1 * z.val = z.val; rw [e0]; omega
  | ⟨1, _⟩ => show win0_5.index t 1 * 4096 + 1 * n.val = n.val; rw [e1]; omega

/-- An index of an output array is in point `t`'s block iff its row is in tile `t`. -/
theorem mem_blk6 (t : Fin cfg0.N) (i : S8192x1024.Idx) :
    i ∈ ((cfg0.win 6).blk t).view.set ↔ ∀ a : Fin 2, win0_6.index t a * S256x1024.size a ≤ (i a).val ∧ (i a).val < win0_6.index t a * S256x1024.size a + S256x1024.size a := by
  show i ∈ ((View.whole main_v14_0).slice (win0_6.rect t)).set ↔ _
  rw [View.set_slice_whole, Rect.mem_set_unit]
  exact Iff.rfl

theorem mem_blk7 (t : Fin cfg0.N) (i : S8192x1024.Idx) :
    i ∈ ((cfg0.win 7).blk t).view.set ↔ ∀ a : Fin 2, win0_7.index t a * S256x1024.size a ≤ (i a).val ∧ (i a).val < win0_7.index t a * S256x1024.size a + S256x1024.size a := by
  show i ∈ ((View.whole main_v14_1).slice (win0_7.rect t)).set ↔ _
  rw [View.set_slice_whole, Rect.mem_set_unit]
  exact Iff.rfl

/-- The tile of a batch row. -/
def tileOf (i : S8192x1024.Idx) : Fin cfg0.N :=
  ⟨(i 0).val / 256, by rw [show cfg0.N = 32 from N_0]; have : (i 0).val < 8192 := (i 0).isLt; omega⟩

/-- Every index of the new-cell array lies in the block of its row's tile, which is written back. -/
theorem cover6 (i : S8192x1024.Idx) : ∃ t : Fin cfg0.N, (cfg0.win 6).flush t = true ∧ i ∈ ((cfg0.win 6).blk t).view.set := by
  refine ⟨tileOf i, flush0_6 _, ?_⟩
  rw [mem_blk6]
  obtain ⟨-, -, -, -, -, -, -, -, -, -, -, -, e0, e1, -⟩ := idx_rows (tileOf i)
  have h0 : (i 0).val < 8192 := (i 0).isLt
  have h1 : (i 1).val < 1024 := (i 1).isLt
  have ht : (tileOf i).val = (i 0).val / 256 := rfl
  intro a
  match a with
  | ⟨0, _⟩ => show win0_6.index (tileOf i) 0 * 256 ≤ (i 0).val ∧ (i 0).val < win0_6.index (tileOf i) 0 * 256 + 256; rw [e0, ht]; omega
  | ⟨1, _⟩ => show win0_6.index (tileOf i) 1 * 1024 ≤ (i 1).val ∧ (i 1).val < win0_6.index (tileOf i) 1 * 1024 + 1024; rw [e1]; omega

theorem cover7 (i : S8192x1024.Idx) : ∃ t : Fin cfg0.N, (cfg0.win 7).flush t = true ∧ i ∈ ((cfg0.win 7).blk t).view.set := by
  refine ⟨tileOf i, flush0_7 _, ?_⟩
  rw [mem_blk7]
  obtain ⟨-, -, -, -, -, -, -, -, -, -, -, -, -, -, e0, e1⟩ := idx_rows (tileOf i)
  have h0 : (i 0).val < 8192 := (i 0).isLt
  have h1 : (i 1).val < 1024 := (i 1).isLt
  have ht : (tileOf i).val = (i 0).val / 256 := rfl
  intro a
  match a with
  | ⟨0, _⟩ => show win0_7.index (tileOf i) 0 * 256 ≤ (i 0).val ∧ (i 0).val < win0_7.index (tileOf i) 0 * 256 + 256; rw [e0, ht]; omega
  | ⟨1, _⟩ => show win0_7.index (tileOf i) 1 * 1024 ≤ (i 1).val ∧ (i 1).val < win0_7.index (tileOf i) 1 * 1024 + 1024; rw [e1]; omega

/-- The new cell array of the specification, of core `c`'s argument arrays. -/
abbrev newCell (c : Dev nD) : S8192x1024.Idx → EReal :=
  Cert.Spec.cellNext (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14))

/-- The new hidden array of the specification, of core `c`'s argument arrays. -/
abbrev newHid (c : Dev nD) : S8192x1024.Idx → EReal :=
  Cert.Spec.hidNext (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18))

/-- What point `t` writes back to the new-cell array is tile `t` of the specification's new cell. -/
theorem flushed6_eq (c : Dev nD) (t : Fin cfg0.N) :
    (dats m 0 c).flushed 6 t = ((cfg0.win 6).blk t).view.read (Elt Ideal) (newCell m c) := by
  show (cfg0.win 6).cut (grid0.coords t) ((dats m 0 c).after 6 t) = _
  rw [after0_6]
  unfold out0_6
  rw [View.canon_unit_zero hz]
  simp only [View.ld_unit_zero (S := S256x1024) hz, View.ld_unit_zero (S := S1024x4096) hz, View.ld_unit_zero (S := S1x4096) hz]
  obtain ⟨-, -, -, -, -, -, -, -, -, -, -, -, e0, e1, -⟩ := idx_rows t
  funext j
  have hj0 : (j 0).val < 256 := (j 0).isLt
  have hj1 : (j 1).val < 1024 := (j 1).isLt
  have hj : (j : S256x1024.Idx) = ix2 (⟨(j 0).val, hj0⟩ : Fin 256) (⟨(j 1).val, hj1⟩ : Fin 1024) := by
    funext a; match a with | ⟨0, _⟩ => rfl | ⟨1, _⟩ => rfl
  have he : ((cfg0.win 6).blk t).view.emb j = ix2 (row t ⟨(j 0).val, hj0⟩) (⟨(j 1).val, hj1⟩ : Fin 1024) := by
    funext a; apply Fin.ext
    match a with
    | ⟨0, _⟩ => show win0_6.index t 0 * 256 + 1 * (j 0).val = 256 * t.val + (j 0).val; rw [e0]; omega
    | ⟨1, _⟩ => show win0_6.index t 1 * 1024 + 1 * (j 1).val = (j 1).val; rw [e1]; omega
  show k0_pay2 (F := Ideal) (iblk m c 0 t) (iblk m c 1 t) (iblk m c 2 t) (iblk m c 3 t) (iblk m c 4 t) (iblk m c 5 t) j
      = newCell m c (((cfg0.win 6).blk t).view.emb j)
  rw [he]
  refine (congrArg (k0_pay2 (F := Ideal) (iblk m c 0 t) (iblk m c 1 t) (iblk m c 2 t) (iblk m c 3 t) (iblk m c 4 t) (iblk m c 5 t)) hj).trans ?_
  refine Cert.KernelIdeal.Tile.cell_entry (iblk m c 0 t) (iblk m c 1 t) (iblk m c 2 t) (iblk m c 3 t) (iblk m c 4 t) (iblk m c 5 t)
    (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14))
    (row t ⟨(j 0).val, hj0⟩) ⟨(j 0).val, hj0⟩ ⟨(j 1).val, hj1⟩ ?_ ?_ ?_ ?_ ?_ ?_ ?_ ?_ ?_ ?_ ?_ ?_
  · intro k; rw [xtile_apply, xn_apply]
  · intro k; rw [htile_apply, hn_apply]
  · rw [ctile_apply, V_main_arg0]
  · intro k; rw [wxblk_apply, wx_apply_0]
  · intro k; rw [whblk_apply, wh_apply_0]
  · rw [bblk_apply, bias_apply_0]
  · intro k; rw [wxblk_apply, wx_apply_1]
  · intro k; rw [whblk_apply, wh_apply_1]
  · rw [bblk_apply, bias_apply_1]
  · intro k; rw [wxblk_apply, wx_apply_2]
  · intro k; rw [whblk_apply, wh_apply_2]
  · rw [bblk_apply, bias_apply_2]

/-- What point `t` writes back to the new-hidden array is tile `t` of the specification's new hidden state. -/
theorem flushed7_eq (c : Dev nD) (t : Fin cfg0.N) :
    (dats m 0 c).flushed 7 t = ((cfg0.win 7).blk t).view.read (Elt Ideal) (newHid m c) := by
  show (cfg0.win 7).cut (grid0.coords t) ((dats m 0 c).after 7 t) = _
  rw [after0_7]
  unfold out0_7
  rw [View.canon_unit_zero hz]
  simp only [View.ld_unit_zero (S := S256x1024) hz, View.ld_unit_zero (S := S1024x4096) hz, View.ld_unit_zero (S := S1x4096) hz]
  obtain ⟨-, -, -, -, -, -, -, -, -, -, -, -, -, -, e0, e1⟩ := idx_rows t
  funext j
  have hj0 : (j 0).val < 256 := (j 0).isLt
  have hj1 : (j 1).val < 1024 := (j 1).isLt
  have hj : (j : S256x1024.Idx) = ix2 (⟨(j 0).val, hj0⟩ : Fin 256) (⟨(j 1).val, hj1⟩ : Fin 1024) := by
    funext a; match a with | ⟨0, _⟩ => rfl | ⟨1, _⟩ => rfl
  have he : ((cfg0.win 7).blk t).view.emb j = ix2 (row t ⟨(j 0).val, hj0⟩) (⟨(j 1).val, hj1⟩ : Fin 1024) := by
    funext a; apply Fin.ext
    match a with
    | ⟨0, _⟩ => show win0_7.index t 0 * 256 + 1 * (j 0).val = 256 * t.val + (j 0).val; rw [e0]; omega
    | ⟨1, _⟩ => show win0_7.index t 1 * 1024 + 1 * (j 1).val = (j 1).val; rw [e1]; omega
  show k0_pay3 (F := Ideal) (iblk m c 0 t) (iblk m c 1 t) (iblk m c 2 t) (iblk m c 3 t) (iblk m c 4 t) (iblk m c 5 t) j
      = newHid m c (((cfg0.win 7).blk t).view.emb j)
  rw [he]
  refine (congrArg (k0_pay3 (F := Ideal) (iblk m c 0 t) (iblk m c 1 t) (iblk m c 2 t) (iblk m c 3 t) (iblk m c 4 t) (iblk m c 5 t)) hj).trans ?_
  refine Cert.KernelIdeal.Tile.hid_entry (iblk m c 0 t) (iblk m c 1 t) (iblk m c 2 t) (iblk m c 3 t) (iblk m c 4 t) (iblk m c 5 t)
    (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18))
    (row t ⟨(j 0).val, hj0⟩) ⟨(j 0).val, hj0⟩ ⟨(j 1).val, hj1⟩ ?_ ?_ ?_ ?_ ?_ ?_ ?_ ?_ ?_ ?_ ?_ ?_ ?_ ?_ ?_
  · intro k; rw [xtile_apply, xn_apply]
  · intro k; rw [htile_apply, hn_apply]
  · rw [ctile_apply, V_main_arg0]
  · intro k; rw [wxblk_apply, wx_apply_0]
  · intro k; rw [whblk_apply, wh_apply_0]
  · rw [bblk_apply, bias_apply_0]
  · intro k; rw [wxblk_apply, wx_apply_1]
  · intro k; rw [whblk_apply, wh_apply_1]
  · rw [bblk_apply, bias_apply_1]
  · intro k; rw [wxblk_apply, wx_apply_2]
  · intro k; rw [whblk_apply, wh_apply_2]
  · rw [bblk_apply, bias_apply_2]
  · intro k; rw [wxblk_apply, wx_apply_3]
  · intro k; rw [whblk_apply, wh_apply_3]
  · rw [bblk_apply, bias_apply_3]

/-- The new-cell array after the run is the specification's: the 32 tiles cover it. -/
theorem final6 (c : Dev nD) : (dats m 0 c).arrAt 6 cfg0.N = newCell m c :=
  (dats m 0 c).arrAt_eq_of_cover 6 (newCell m c) (fun t _ => flushed6_eq m c t) cover6

/-- The new-hidden array after the run is the specification's. -/
theorem final7 (c : Dev nD) : (dats m 0 c).arrAt 7 cfg0.N = newHid m c :=
  (dats m 0 c).arrAt_eq_of_cover 7 (newHid m c) (fun t _ => flushed7_eq m c t) cover7

/-- The run, read: the two result arrays at the specification's new cell and new hidden state of the arguments,
    the nineteen arguments unchanged. -/
theorem run : θ_run defs (onTc (τ := τ) (main (F := Ideal))) ⟨m, fun _ => 0, ρ⟩ fun r => ∀ c : Dev nD,
      r.2.mem ((c : Thread nD τ).loc main_v14_0) = newCell m c
      ∧ r.2.mem ((c : Thread nD τ).loc main_v14_1) = newHid m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14)
      ∧ r.2.mem ((c : Thread nD τ).loc main_arg15) = m ((c : Thread nD τ).loc main_arg15)
      ∧ r.2.mem ((c : Thread nD τ).loc main_arg16) = m ((c : Thread nD τ).loc main_arg16)
      ∧ r.2.mem ((c : Thread nD τ).loc main_arg17) = m ((c : Thread nD τ).loc main_arg17)
      ∧ r.2.mem ((c : Thread nD τ).loc main_arg18) = m ((c : Thread nD τ).loc main_arg18) :=
  (θ_run defs _ _).mono (fun r h c =>
    ⟨((h c).1 6).trans (final6 m c),
      ((h c).1 7).trans (final7 m c),
      ((h c).1 2).trans (((dats m 0 c).arrAt_in 2 rfl _).trans ((A_eq m c 2).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c),
      ((h c).2 main_arg14 (Pipeline.mem_restRefs_of main_arg14 (by decide) (by decide))).trans (V_main_arg14 m c),
      ((h c).2 main_arg15 (Pipeline.mem_restRefs_of main_arg15 (by decide) (by decide))).trans (V_main_arg15 m c),
      ((h c).2 main_arg16 (Pipeline.mem_restRefs_of main_arg16 (by decide) (by decide))).trans (V_main_arg16 m c),
      ((h c).2 main_arg17 (Pipeline.mem_restRefs_of main_arg17 (by decide) (by decide))).trans (V_main_arg17 m c),
      ((h c).2 main_arg18 (Pipeline.mem_restRefs_of main_arg18 (by decide) (by decide))).trans (V_main_arg18 m c)⟩) (run_main m ρ)

end Cert.KernelIdeal.KValue

end
-- ==== Proof.RefValue.lean ====
/-
  The reference's result arrays are the LSTM cell step of the specification.

  Each gate is computed by the same seventeen operations on its own four arrays: the activations against the
  transposed weights (a sum over the 1024 input features), the bias row spread over the 8192 batch rows, the two
  layers added, and, for the forget, input and output gates, one over one plus the exponential of the negated
  sum, which over the extended reals is the logistic function by its definition. So one layer, one pre-activation
  and one logistic are read at an index once, and the other gates' stages are the same functions of other arrays.
-/
import proofs.«156153_j1872605741706_1_alg».proof.Proof.Gen.ReferenceIdeal.Run
import proofs.«156153_j1872605741706_1_alg».proof.Proof.Gen.ReferenceIdeal.Read
import proofs.«156153_j1872605741706_1_alg».proof.Proof.Spec
import Idealize.ShloMosaic.Lib.IdealHost

noncomputable section

open scoped BigOperators

namespace Cert.ReferenceIdeal.RefValue

open Cert.ReferenceIdeal Cert.ReferenceIdeal.Gen Cert.ReferenceIdeal.Read Idealize.ShloMosaic Idealize.ShloMosaic.TcCoe
  Idealize.SL.Sem Idealize.ShloMosaic.StableHlo Idealize.ShloMosaic.ValueIdx

/-- One linear layer at row `b`, unit `j`: the sum over the input features `k` of the activation `(b, k)` times
    the weight `(j, k)` (the transposed matrix read at `(k, j)`), plus the bias at `j`, which the two spreading
    steps (a row of 1024, then 8192 copies of it) carry to every batch row. -/
theorem layer_apply (a : FVec Ideal S8192x1024 .f32) (W : FVec Ideal S1024x1024 .f32) (bias : FVec Ideal S1024 .f32)
    (b : Fin 8192) (j : Fin 1024) :
    val_main_v4 (F := Ideal) a W bias (ix2 b j) = Cert.Spec.lin a W b j + bias (ix1 j) := by
  have el : ∀ k : Fin 1024, lidx_main_v1 (ix2 b j) k = ix2 b k := fun k =>
    funext fun d => Fin.ext (by match d with | ⟨0, _⟩ => rfl | ⟨1, _⟩ => rfl)
  have er : ∀ k : Fin 1024, idx_main_v0 (ridx_main_v1 (ix2 b j) k) = ix2 j k := fun k =>
    funext fun d => Fin.ext (by match d with | ⟨0, _⟩ => rfl | ⟨1, _⟩ => rfl)
  have eb : idx_main_v2 (idx_main_v3 (ix2 b j)) = ix1 j :=
    funext fun d => Fin.ext (by match d with | ⟨0, _⟩ => rfl)
  rw [val_main_v4_apply, val_main_v1_apply, val_main_v3_apply, val_main_v2_apply, eb, Ideal.addf_def]
  simp only [val_main_v0_apply, el, er]
  rfl

/-- A gate's pre-activation at `(b, j)`: the layer of `x` plus the layer of `h`, each with its own bias. The
    second layer is the same function as the first, of other arrays. -/
theorem pre_apply (h x : FVec Ideal S8192x1024 .f32) (Wx : FVec Ideal S1024x1024 .f32) (bx : FVec Ideal S1024 .f32)
    (Wh : FVec Ideal S1024x1024 .f32) (bh : FVec Ideal S1024 .f32) (b : Fin 8192) (j : Fin 1024) :
    val_main_v10 (F := Ideal) h x Wx bx Wh bh (ix2 b j) = Cert.Spec.pre x h Wx Wh bx bh b j := by
  have e9 : val_main_v9 (F := Ideal) h Wh bh = val_main_v4 (F := Ideal) h Wh bh := rfl
  rw [val_main_v10_apply, e9, layer_apply, layer_apply, Ideal.addf_def]
  rfl

/-- One over one plus the exponential of the negated pre-activation is its logistic: the constant's bit pattern is
    the extended real one, and the logistic is defined as this quotient. -/
theorem logistic_apply (h x : FVec Ideal S8192x1024 .f32) (Wx : FVec Ideal S1024x1024 .f32) (bx : FVec Ideal S1024 .f32)
    (Wh : FVec Ideal S1024x1024 .f32) (bh : FVec Ideal S1024 .f32) (b : Fin 8192) (j : Fin 1024) :
    val_main_v16 (F := Ideal) h x Wx bx Wh bh (ix2 b j) = Ideal.logistic (Cert.Spec.pre x h Wx Wh bx bh b j) := by
  rw [val_main_v16_apply, val_main_v15_apply, val_main_cst_0_apply, val_main_v14_apply, val_main_v13_apply,
    val_main_cst_apply, val_main_v12_apply, val_main_v11_apply, pre_apply, Ideal.hostDivf_def, Ideal.addf_def,
    Ideal.hostUnary_exp_def, Ideal.hostNegf_def, Ideal.negf_def, Ideal.ofBits_def, Ideal.ofBits_one_f32]
  rfl

/-- The new cell at `(b, j)`: the old cell times the forget gate plus the input gate times the candidate. The input
    gate's stages are the forget gate's, and the candidate's pre-activation the forget gate's, of other arrays. -/
theorem cell_apply (a0 : FVec Ideal S8192x1024 .f32) (a1 : FVec Ideal S8192x1024 .f32) (a2 : FVec Ideal S8192x1024 .f32) (a3 : FVec Ideal S1024x1024 .f32) (a4 : FVec Ideal S1024 .f32) (a5 : FVec Ideal S1024x1024 .f32) (a6 : FVec Ideal S1024 .f32) (a7 : FVec Ideal S1024x1024 .f32) (a8 : FVec Ideal S1024 .f32) (a9 : FVec Ideal S1024x1024 .f32) (a10 : FVec Ideal S1024 .f32) (a11 : FVec Ideal S1024x1024 .f32) (a12 : FVec Ideal S1024 .f32) (a13 : FVec Ideal S1024x1024 .f32) (a14 : FVec Ideal S1024 .f32)
    (b : Fin 8192) (j : Fin 1024) :
    val_main_v48 (F := Ideal) a0 a1 a2 a3 a4 a5 a6 a7 a8 a9 a10 a11 a12 a13 a14 (ix2 b j)
      = Cert.Spec.cellAt a0 a2 a1 a3 a5 a7 a9 a11 a13 a4 a6 a8 a10 a12 a14 b j := by
  have e33 : val_main_v33 (F := Ideal) a1 a2 a7 a8 a9 a10 = val_main_v16 (F := Ideal) a1 a2 a7 a8 a9 a10 := rfl
  have e44 : val_main_v44 (F := Ideal) a1 a2 a11 a12 a13 a14 = val_main_v10 (F := Ideal) a1 a2 a11 a12 a13 a14 := rfl
  rw [val_main_v48_apply, val_main_v46_apply, val_main_v47_apply, val_main_v45_apply, e33, e44, logistic_apply,
    logistic_apply, pre_apply, Ideal.addf_def, Ideal.mulf_def, Ideal.mulf_def, Ideal.hostUnary_tanh_def]
  rfl

/-- The new hidden state at `(b, j)`: the output gate times the hyperbolic tangent of the new cell. -/
theorem hid_apply (a0 : FVec Ideal S8192x1024 .f32) (a1 : FVec Ideal S8192x1024 .f32) (a2 : FVec Ideal S8192x1024 .f32) (a3 : FVec Ideal S1024x1024 .f32) (a4 : FVec Ideal S1024 .f32) (a5 : FVec Ideal S1024x1024 .f32) (a6 : FVec Ideal S1024 .f32) (a7 : FVec Ideal S1024x1024 .f32) (a8 : FVec Ideal S1024 .f32) (a9 : FVec Ideal S1024x1024 .f32) (a10 : FVec Ideal S1024 .f32) (a11 : FVec Ideal S1024x1024 .f32) (a12 : FVec Ideal S1024 .f32) (a13 : FVec Ideal S1024x1024 .f32) (a14 : FVec Ideal S1024 .f32) (a15 : FVec Ideal S1024x1024 .f32) (a16 : FVec Ideal S1024 .f32) (a17 : FVec Ideal S1024x1024 .f32) (a18 : FVec Ideal S1024 .f32)
    (b : Fin 8192) (j : Fin 1024) :
    val_main_v67 (F := Ideal) a0 a1 a2 a3 a4 a5 a6 a7 a8 a9 a10 a11 a12 a13 a14 a15 a16 a17 a18 (ix2 b j)
      = Cert.Spec.hidAt a0 a2 a1 a3 a5 a7 a9 a11 a13 a15 a17 a4 a6 a8 a10 a12 a14 a16 a18 b j := by
  have e65 : val_main_v65 (F := Ideal) a1 a2 a15 a16 a17 a18 = val_main_v16 (F := Ideal) a1 a2 a15 a16 a17 a18 := rfl
  rw [val_main_v67_apply, e65, val_main_v66_apply, logistic_apply, cell_apply,
    Ideal.mulf_def, Ideal.hostUnary_tanh_def]
  rfl

/-- The reference's new cell array is the specification's. -/
theorem cell_eq (a0 : FVec Ideal S8192x1024 .f32) (a1 : FVec Ideal S8192x1024 .f32) (a2 : FVec Ideal S8192x1024 .f32) (a3 : FVec Ideal S1024x1024 .f32) (a4 : FVec Ideal S1024 .f32) (a5 : FVec Ideal S1024x1024 .f32) (a6 : FVec Ideal S1024 .f32) (a7 : FVec Ideal S1024x1024 .f32) (a8 : FVec Ideal S1024 .f32) (a9 : FVec Ideal S1024x1024 .f32) (a10 : FVec Ideal S1024 .f32) (a11 : FVec Ideal S1024x1024 .f32) (a12 : FVec Ideal S1024 .f32) (a13 : FVec Ideal S1024x1024 .f32) (a14 : FVec Ideal S1024 .f32) :
    val_main_v48 (F := Ideal) a0 a1 a2 a3 a4 a5 a6 a7 a8 a9 a10 a11 a12 a13 a14 = Cert.Spec.cellNext a0 a1 a2 a3 a4 a5 a6 a7 a8 a9 a10 a11 a12 a13 a14 := by
  funext i
  obtain ⟨b, j, rfl⟩ : ∃ (b : Fin 8192) (j : Fin 1024), i = ix2 b j := ⟨i 0, i 1, eq_ix2 i⟩
  rw [cell_apply, Cert.Spec.cellNext_apply]

/-- The reference's new hidden array is the specification's. -/
theorem hid_eq (a0 : FVec Ideal S8192x1024 .f32) (a1 : FVec Ideal S8192x1024 .f32) (a2 : FVec Ideal S8192x1024 .f32) (a3 : FVec Ideal S1024x1024 .f32) (a4 : FVec Ideal S1024 .f32) (a5 : FVec Ideal S1024x1024 .f32) (a6 : FVec Ideal S1024 .f32) (a7 : FVec Ideal S1024x1024 .f32) (a8 : FVec Ideal S1024 .f32) (a9 : FVec Ideal S1024x1024 .f32) (a10 : FVec Ideal S1024 .f32) (a11 : FVec Ideal S1024x1024 .f32) (a12 : FVec Ideal S1024 .f32) (a13 : FVec Ideal S1024x1024 .f32) (a14 : FVec Ideal S1024 .f32) (a15 : FVec Ideal S1024x1024 .f32) (a16 : FVec Ideal S1024 .f32) (a17 : FVec Ideal S1024x1024 .f32) (a18 : FVec Ideal S1024 .f32) :
    val_main_v67 (F := Ideal) a0 a1 a2 a3 a4 a5 a6 a7 a8 a9 a10 a11 a12 a13 a14 a15 a16 a17 a18 = Cert.Spec.hidNext a0 a1 a2 a3 a4 a5 a6 a7 a8 a9 a10 a11 a12 a13 a14 a15 a16 a17 a18 := by
  funext i
  obtain ⟨b, j, rfl⟩ : ∃ (b : Fin 8192) (j : Fin 1024), i = ix2 b j := ⟨i 0, i 1, eq_ix2 i⟩
  rw [hid_apply, Cert.Spec.hidNext_apply]

/-- On every device, from any memory with zero counters, every weakly fair execution of the reference terminates
    with the new cell and the new hidden state of the specification in its two results, the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v48) = Cert.Spec.cellNext (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14))
      ∧ r.2.mem ((c.tc : Thread nD τ).loc main_v67) = Cert.Spec.hidNext (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18) :=
  (θ_run defs _ _).mono (fun _ h c => ⟨(h c).1.trans ((val_main_v48_eq (F := Ideal) _ _ _ _ _ _ _ _ _ _ _ _ _ _ _).trans (cell_eq _ _ _ _ _ _ _ _ _ _ _ _ _ _ _)),
      (h c).2.1.trans ((val_main_v67_eq (F := Ideal) _ _ _ _ _ _ _ _ _ _ _ _ _ _ _ _ _ _ _).trans (hid_eq _ _ _ _ _ _ _ _ _ _ _ _ _ _ _ _ _ _ _)),
      (h c).2.2⟩)
    (Cert.ReferenceIdeal.Value.run (F := Ideal) m ρ)

end Cert.ReferenceIdeal.RefValue

end
-- ==== Proof.lean ====
/-
  The certificate of the LSTM cell kernel against its reference: both programs run to the end leaving their
  arguments unchanged, and at the ideal instance they end with equal results.

  The kernel fuses the four gates' eight linear layers into two matrix products against stacked, transposed weight
  matrices and adds the eight biases as one pre-summed row; the reference computes every layer by itself. Over the
  extended reals each gate's pre-activation is the same sum of the same four terms in another order, and addition
  there is commutative and associative, so the two results are one function of the arguments (Proof/Spec.lean):
  the kernel's arrays are that function (Proof/KIValue.lean) and so are the reference's (Proof/RefValue.lean).
  Nothing is rewritten by the idealization, so the preservation claim is empty.
-/
import proofs.«156153_j1872605741706_1_alg».proof.Defs
import proofs.«156153_j1872605741706_1_alg».proof.Proof.Gen.Kernel
import proofs.«156153_j1872605741706_1_alg».proof.Proof.Gen.KernelIdeal
import proofs.«156153_j1872605741706_1_alg».proof.Proof.Gen.ReferenceIdeal
import proofs.«156153_j1872605741706_1_alg».proof.Proof.Gen.Pre_finite_inputs
import proofs.«156153_j1872605741706_1_alg».proof.Proof.KFrame
import proofs.«156153_j1872605741706_1_alg».proof.Proof.KIFrame
import proofs.«156153_j1872605741706_1_alg».proof.Proof.KIValue
import proofs.«156153_j1872605741706_1_alg».proof.Proof.RefValue
import Idealize.ShloMosaic.Adequacy
import Idealize.ShloMosaic.Init

noncomputable section

namespace Cert.Proof

open Idealize.ShloMosaic Idealize.SL.Sem

/-- The word-level kernel runs and keeps its arguments. -/
theorem frame_k : Cert.frame_Kernel :=
  fun m ρ _ => Cert.Kernel.Hand.frame m ρ

/-- The idealized kernel runs and keeps its arguments. -/
theorem frame_ki : Cert.frame_KernelIdeal :=
  fun m ρ _ => Cert.KernelIdeal.Hand.frame m ρ

/-- The idealized reference runs and keeps its arguments: its run with the two results dropped. -/
theorem frame_ri : Cert.frame_ReferenceIdeal :=
  fun m ρ _ => (θ_run Cert.ReferenceIdeal.defs _ _).mono (fun _ h c => (h c).2.2)
    (Cert.ReferenceIdeal.Value.run (F := Ideal) m ρ)

/-- Both idealized programs end at the specification's new cell and new hidden state of their arguments, and the
    arguments agree. -/
theorem algebraic : Cert.algebraic_KernelIdeal_ReferenceIdeal := by
  intro m ρ m' ρ' _ hagree
  refine ⟨fun c => Cert.KernelIdeal.KValue.newCell m c, fun c => Cert.KernelIdeal.KValue.newHid m c,
    Cert.KernelIdeal.KValue.run m ρ, ?_⟩
  refine (θ_run Cert.ReferenceIdeal.defs _ _).mono (fun _ h c => ⟨(h c).1.trans ?_, (h c).2.1.trans ?_, (h c).2.2⟩)
    (Cert.ReferenceIdeal.RefValue.run m' ρ')
  · rw [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2.1, (hagree c).2.2.2.2.2.2.2.2.2.2.2.2.2.1, (hagree c).2.2.2.2.2.2.2.2.2.2.2.2.2.2.1]
  · rw [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2.1, (hagree c).2.2.2.2.2.2.2.2.2.2.2.2.2.1, (hagree c).2.2.2.2.2.2.2.2.2.2.2.2.2.2.1, (hagree c).2.2.2.2.2.2.2.2.2.2.2.2.2.2.2.1, (hagree c).2.2.2.2.2.2.2.2.2.2.2.2.2.2.2.2.1, (hagree c).2.2.2.2.2.2.2.2.2.2.2.2.2.2.2.2.2.1, (hagree c).2.2.2.2.2.2.2.2.2.2.2.2.2.2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
